-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100000 : Shape := ⟨2, ![16, 100000]⟩
abbrev S1600000 : Shape := ⟨1, ![1600000]⟩
abbrev S100000 : Shape := ⟨1, ![100000]⟩
abbrev S_ : Shape := ⟨0, ![]⟩

class Facts : Prop where
  bcast_S_S16x100000 : S_.BroadcastsInDim S16x100000 (![] : Fin 0 → Fin S16x100000.rank)
  reducesTo_S16x100000_S_d0_1 : S16x100000.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg7 : FVec F S1600000 .f32) (main_arg8 : FVec F S1600000 .f32) (main_arg10 : IVec S1600000 32) (main_v33 : IVec S_ 1) : IVec S_ 1 :=
  let main_v34 : FVec F S1600000 .f32 := Host.absf main_arg7
  let main_cst_12 : FVec F S_ .f32 := constant S_ .f32 0x7F800000#32
  let main_v35 : FVec F S1600000 .f32 := broadcastInDim S1600000 ![] bcast_S_S1600000 main_cst_12
  let main_v36 : IVec S1600000 1 := cmpf .olt main_v34 main_v35
  let main_c_13 : IVec S_ 1 := constantI S_ 1 1#1
  let main_v37 : IVec S_ 1 := (fun x v => Host.reduce IntOp.andi x v reducesTo_S1600000_S_d0 h_S_) main_v36 main_c_13
  let main_v38 : IVec S_ 1 := andi main_v33 main_v37
  let main_v39 : FVec F S1600000 .f32 := Host.absf main_arg8
  let main_cst_14 : FVec F S_ .f32 := constant S_ .f32 0x7F800000#32
  let main_v40 : FVec F S1600000 .f32 := broadcastInDim S1600000 ![] bcast_S_S1600000 main_cst_14
  let main_v41 : IVec S1600000 1 := cmpf .olt main_v39 main_v40
  let main_c_15 : IVec S_ 1 := constantI S_ 1 1#1
  let main_v42 : IVec S_ 1 := (fun x v => Host.reduce IntOp.andi x v reducesTo_S1600000_S_d0 h_S_) main_v41 main_c_15
  let main_v43 : IVec S_ 1 := andi main_v38 main_v42
  let main_c_16 : IVec S_ 32 := constantI S_ 32 0#32
  let main_v44 : IVec S1600000 32 := broadcastInDim S1600000 ![] bcast_S_S1600000 main_c_16
  let main_v45 : IVec S1600000 1 := cmpi .sge main_arg10 main_v44
  let main_c_17 : IVec S_ 1 := constantI S_ 1 1#1
  let main_v46 : IVec S_ 1 := (fun x v => Host.reduce IntOp.andi x v reducesTo_S1600000_S_d0 h_S_) main_v45 main_c_17
  let main_v47 : IVec S_ 1 := andi main_v43 main_v46
  main_v47

def fn_part1 {F : FTy → Type} [FloatOps F] (main_arg4 : FVec F S100000 .f32) (main_arg5 : FVec F S100000 .f32) (main_arg6 : FVec F S1600000 .f32) (main_arg7 : FVec F S1600000 .f32) (main_arg8 : FVec F S1600000 .f32) (main_arg10 : IVec S1600000 32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S100000 .f32 := Host.absf main_arg4
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S100000 .f32 := Host.absf main_arg5
  let main_cst_8 : FVec F S_ .f32 := constant S_ .f32 0x7F800000#32
  let main_v25 : FVec F S100000 .f32 := broadcastInDim S100000 ![] bcast_S_S100000 main_cst_8
  let main_v26 : IVec S100000 1 := cmpf .olt main_v24 main_v25
  let main_c_9 : IVec S_ 1 := constantI S_ 1 1#1
  let main_v27 : IVec S_ 1 := (fun x v => Host.reduce IntOp.andi x v reducesTo_S100000_S_d0 h_S_) main_v26 main_c_9
  let main_v28 : IVec S_ 1 := andi main_v23 main_v27
  let main_v29 : FVec F S1600000 .f32 := Host.absf main_arg6
  let main_cst_10 : FVec F S_ .f32 := constant S_ .f32 0x7F800000#32
  let main_v30 : FVec F S1600000 .f32 := broadcastInDim S1600000 ![] bcast_S_S1600000 main_cst_10
  let main_v31 : IVec S1600000 1 := cmpf .olt main_v29 main_v30
  let main_c_11 : IVec S_ 1 := constantI S_ 1 1#1
  let main_v32 : IVec S_ 1 := (fun x v => Host.reduce IntOp.andi x v reducesTo_S1600000_S_d0 h_S_) main_v31 main_c_11
  let main_v33 : IVec S_ 1 := andi main_v28 main_v32
  fn_part2 (F := F) main_arg7 main_arg8 main_arg10 main_v33

def fn {F : FTy → Type} [FloatOps F] (main_arg0 : FVec F S16x100000 .f32) (main_arg1 : FVec F S1600000 .f32) (main_arg2 : FVec F S100000 .f32) (main_arg3 : FVec F S100000 .f32) (main_arg4 : FVec F S100000 .f32) (main_arg5 : FVec F S100000 .f32) (main_arg6 : FVec F S1600000 .f32) (main_arg7 : FVec F S1600000 .f32) (main_arg8 : FVec F S1600000 .f32) (main_arg9 : IVec S1600000 32) (main_arg10 : IVec S1600000 32) (main_arg11 : IVec S1600000 1) : IVec S_ 1 :=
  let main_v0 : FVec F S16x100000 .f32 := Host.absf main_arg0
  let main_cst : FVec F S_ .f32 := constant S_ .f32 0x7F800000#32
  let main_v1 : FVec F S16x100000 .f32 := broadcastInDim S16x100000 ![] bcast_S_S16x100000 main_cst
  let main_v2 : IVec S16x100000 1 := cmpf .olt main_v0 main_v1
  let main_c : IVec S_ 1 := constantI S_ 1 1#1
  let main_v3 : IVec S_ 1 := (fun x v => Host.reduce IntOp.andi x v reducesTo_S16x100000_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg3
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg4 main_arg5 main_arg6 main_arg7 main_arg8 main_arg10 main_v13 main_v16
-- ==== Kernel.lean ====
abbrev S16x100000 : Shape := ⟨2, ![16, 100000]⟩
abbrev S1600000 : Shape := ⟨1, ![1600000]⟩
abbrev S100000 : Shape := ⟨1, ![100000]⟩
abbrev S625x2560 : Shape := ⟨2, ![625, 2560]⟩
abbrev S625x256 : Shape := ⟨2, ![625, 256]⟩
abbrev S100000x16 : Shape := ⟨2, ![100000, 16]⟩
abbrev S_ : Shape := ⟨0, ![]⟩
abbrev S1600000x1 : Shape := ⟨2, ![1600000, 1]⟩
abbrev S1600000x16 : Shape := ⟨2, ![1600000, 16]⟩
abbrev S100096x16 : Shape := ⟨2, ![100096, 16]⟩
abbrev S16x100096 : Shape := ⟨2, ![16, 100096]⟩
abbrev S100096 : Shape := ⟨1, ![100096]⟩
abbrev S1x100096 : Shape := ⟨2, ![1, 100096]⟩
abbrev S16x5888 : Shape := ⟨2, ![16, 5888]⟩
abbrev S1x5888 : Shape := ⟨2, ![1, 5888]⟩

abbrev nBuf : Space → Nat
  | .hbm => 59
  | .vmem => 26
  | .smem => 0
  | _ => 0

abbrev bufTy : (tb : Table) → Fin (tcTables nBuf tb) → BufTy
  | .hbm, ⟨0, _⟩ => ⟨S16x100000, .f32⟩
  | .hbm, ⟨1, _⟩ => ⟨S1600000, .f32⟩
  | .hbm, ⟨2, _⟩ => ⟨S100000, .f32⟩
  | .hbm, ⟨3, _⟩ => ⟨S100000, .f32⟩
  | .hbm, ⟨4, _⟩ => ⟨S100000, .f32⟩
  | .hbm, ⟨5, _⟩ => ⟨S100000, .f32⟩
  | .hbm, ⟨6, _⟩ => ⟨S1600000, .f32⟩
  | .hbm, ⟨7, _⟩ => ⟨S1600000, .f32⟩
  | .hbm, ⟨8, _⟩ => ⟨S1600000, .f32⟩
  | .hbm, ⟨9, _⟩ => ⟨S1600000, .i32⟩
  | .hbm, ⟨10, _⟩ => ⟨S1600000, .i32⟩
  | .hbm, ⟨11, _⟩ => ⟨S1600000, .i1⟩
  | .hbm, ⟨12, _⟩ => ⟨S1600000, .f32⟩
  | .hbm, ⟨13, _⟩ => ⟨S625x2560, .f32⟩
  | .hbm, ⟨14, _⟩ => ⟨S625x2560, .f32⟩
  | .hbm, ⟨15, _⟩ => ⟨S625x2560, .f32⟩
  | .hbm, ⟨16, _⟩ => ⟨S625x2560, .f32⟩
  | .hbm, ⟨17, _⟩ => ⟨S625x2560, .f32⟩
  | .hbm, ⟨18, _⟩ => ⟨S625x2560, .f32⟩
  | .hbm, ⟨19, _⟩ => ⟨S1600000, .f32⟩
  | .hbm, ⟨20, _⟩ => ⟨S100000x16, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x16, .f32⟩
  | .hbm, ⟨30, _⟩ => ⟨S1600000x1, .f32⟩
  | .hbm, ⟨31, _⟩ => ⟨S1600000x16, .f32⟩
  | .hbm, ⟨32, _⟩ => ⟨S1600000x16, .f32⟩
  | .hbm, ⟨33, _⟩ => ⟨S_, .f32⟩
  | .hbm, ⟨34, _⟩ => ⟨S100096x16, .f32⟩
  | .hbm, ⟨35, _⟩ => ⟨S1600000x1, .i32⟩
  | .hbm, ⟨36, _⟩ => ⟨S100096x16, .f32⟩
  | .hbm, ⟨37, _⟩ => ⟨S16x100096, .f32⟩
  | .hbm, ⟨38, _⟩ => ⟨S_, .i32⟩
  | .hbm, ⟨39, _⟩ => ⟨S_, .f32⟩
  | .hbm, ⟨40, _⟩ => ⟨S16x100096, .f32⟩
  | .hbm, ⟨41, _⟩ => ⟨S_, .i32⟩
  | .hbm, ⟨42, _⟩ => ⟨S_, .f32⟩
  | .hbm, ⟨43, _⟩ => ⟨S100096, .f32⟩
  | .hbm, ⟨44, _⟩ => ⟨S1x100096, .f32⟩
  | .hbm, ⟨45, _⟩ => ⟨S_, .i32⟩
  | .hbm, ⟨46, _⟩ => ⟨S_, .f32⟩
  | .hbm, ⟨47, _⟩ => ⟨S100096, .f32⟩
  | .hbm, ⟨48, _⟩ => ⟨S1x100096, .f32⟩
  | .hbm, ⟨49, _⟩ => ⟨S_, .i32⟩
  | .hbm, ⟨50, _⟩ => ⟨S_, .f32⟩
  | .hbm, ⟨51, _⟩ => ⟨S100096, .f32⟩
  | .hbm, ⟨52, _⟩ => ⟨S1x100096, .f32⟩
  | .hbm, ⟨53, _⟩ => ⟨S_, .i32⟩
  | .hbm, ⟨54, _⟩ => ⟨S_, .f32⟩
  | .hbm, ⟨55, _⟩ => ⟨S100096, .f32⟩
  | .hbm, ⟨56, _⟩ => ⟨S1x100096, .f32⟩
  | .hbm, ⟨57, _⟩ => ⟨S16x100096, .f32⟩
  | .hbm, ⟨58, _⟩ => ⟨S16x100000, .f32⟩
  | .local _ .vmem, ⟨0, _⟩ => ⟨S625x256, .f32⟩
  | .local _ .vmem, ⟨1, _⟩ => ⟨S625x256, .f32⟩
  | .local _ .vmem, ⟨2, _⟩ => ⟨S625x256, .f32⟩
  | .local _ .vmem, ⟨3, _⟩ => ⟨S625x256, .f32⟩
  | .local _ .vmem, ⟨4, _⟩ => ⟨S625x256, .f32⟩
  | .local _ .vmem, ⟨5, _⟩ => ⟨S625x256, .f32⟩
  | .local _ .vmem, ⟨6, _⟩ => ⟨S625x256, .f32⟩
  | .local _ .vmem, ⟨7, _⟩ => ⟨S625x256, .f32⟩
  | .local _ .vmem, ⟨8, _⟩ => ⟨S625x256, .f32⟩
  | .local _ .vmem, ⟨9, _⟩ => ⟨S625x256, .f32⟩
  | .local _ .vmem, ⟨10, _⟩ => ⟨S625x256, .f32⟩
  | .local _ .vmem, ⟨11, _⟩ => ⟨S625x256, .f32⟩
  | .local _ .vmem, ⟨12, _⟩ => ⟨S16x5888, .f32⟩
  | .local _ .vmem, ⟨13, _⟩ => ⟨S16x5888, .f32⟩
  | .local _ .vmem, ⟨14, _⟩ => ⟨S16x5888, .f32⟩
  | .local _ .vmem, ⟨15, _⟩ => ⟨S16x5888, .f32⟩
  | .local _ .vmem, ⟨16, _⟩ => ⟨S1x5888, .f32⟩
  | .local _ .vmem, ⟨17, _⟩ => ⟨S1x5888, .f32⟩
  | .local _ .vmem, ⟨18, _⟩ => ⟨S1x5888, .f32⟩
  | .local _ .vmem, ⟨19, _⟩ => ⟨S1x5888, .f32⟩
  | .local _ .vmem, ⟨20, _⟩ => ⟨S1x5888, .f32⟩
  | .local _ .vmem, ⟨21, _⟩ => ⟨S1x5888, .f32⟩
  | .local _ .vmem, ⟨22, _⟩ => ⟨S1x5888, .f32⟩
  | .local _ .vmem, ⟨23, _⟩ => ⟨S1x5888, .f32⟩
  | .local _ .vmem, ⟨24, _⟩ => ⟨S16x5888, .f32⟩
  | .local _ .vmem, ⟨25, _⟩ => ⟨S16x5888, .f32⟩
  | _, _ => ⟨S16x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_call0_v0 : Ref sig .tc := ⟨.hbm, 39, rfl⟩
abbrev main_v23 : Ref sig .tc := ⟨.hbm, 40, rfl⟩
abbrev main_c_2 : Ref sig .tc := ⟨.hbm, 41, rfl⟩
abbrev main_call1_v0 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_call2_v0 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_call3_v0 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_call4_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S625x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S625x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S625x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S625x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S625x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S625x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x5888 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x5888 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x5888 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x5888 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x5888 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x5888 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x5888 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1600000_S625x2560 : S1600000.ShapeCasts S625x2560
  inb_S625x256_S625x256_0_0 : ∀ a, (![0, 0] : Fin 2 → Nat) a + S625x256.size a ≤ S625x256.size a
  h_S625x256 : 0 < S625x256.numel
  shapeCasts_S625x256_S625x256 : S625x256.ShapeCasts S625x256
  shapeCasts_S625x2560_S1600000 : S625x2560.ShapeCasts S1600000
  transposes_S16x100000_S100000x16_1_0 : S16x100000.Transposes [1, 0] S100000x16
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x16_0_1 : S1600000x1.BroadcastsInDim S1600000x16 (![0, 1] : Fin 2 → Fin S1600000x16.rank)
  bcast_S_S100096x16 : S_.BroadcastsInDim S100096x16 (![] : Fin 0 → Fin S100096x16.rank)
  transposes_S100096x16_S16x100096_1_0 : S100096x16.Transposes [1, 0] S16x100096
  pads_S16x100000_S16x100096_000_0960 : S16x100000.Pads (![0, 0] : Fin 2 → Nat) ![0, 96] ![0, 0] S16x100096
  h_S_ : 0 < S_.numel
  pads_S100000_S100096_0960 : S100000.Pads (![0] : Fin 1 → Nat) ![96] ![0] S100096
  shapeCasts_S100096_S1x100096 : S100096.ShapeCasts S1x100096
  inb_S16x5888_S16x5888_0_0 : ∀ a, (![0, 0] : Fin 2 → Nat) a + S16x5888.size a ≤ S16x5888.size a
  h_S16x5888 : 0 < S16x5888.numel
  shapeCasts_S16x5888_S16x5888 : S16x5888.ShapeCasts S16x5888
  inb_S1x5888_S1x5888_0_0 : ∀ a, (![0, 0] : Fin 2 → Nat) a + S1x5888.size a ≤ S1x5888.size a
  h_S1x5888 : 0 < S1x5888.numel
  shapeCasts_S1x5888_S1x5888 : S1x5888.ShapeCasts S1x5888
  broadcasts_S1x5888_S16x5888 : S1x5888.Broadcasts S16x5888
  slices_S16x100096_S16x100000_0_0 : S16x100096.Slices ![0, 0] S16x100000
  gather_S100000x16_S1600000x1_S1600000x16_1_0_n_n_0_1_116_wf : GatherDims.WF S100000x16 S1600000x1 S1600000x16 [1] [0] [] [0] [] 1 ![1, 16]
  scatter_S100096x16_S1600000x1_S1600000x16_1_0_0_1_wf : ScatterDims.WF S100096x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S625x256.size a ≤ S625x2560.size a
  hwx0_0 : ∀ i : grid0.Coords, EltTy.bits .f32 = 32 ∨ (Rect.block (s := S625x2560) S625x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S625x256.size a ≤ S625x2560.size a
  hwx0_1 : ∀ i : grid0.Coords, EltTy.bits .f32 = 32 ∨ (Rect.block (s := S625x2560) S625x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S625x256.size a ≤ S625x2560.size a
  hwx0_2 : ∀ i : grid0.Coords, EltTy.bits .f32 = 32 ∨ (Rect.block (s := S625x2560) S625x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S625x256.size a ≤ S625x2560.size a
  hwx0_3 : ∀ i : grid0.Coords, EltTy.bits .f32 = 32 ∨ (Rect.block (s := S625x2560) S625x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S625x256.size a ≤ S625x2560.size a
  hwx0_4 : ∀ i : grid0.Coords, EltTy.bits .f32 = 32 ∨ (Rect.block (s := S625x2560) S625x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S625x256.size a ≤ S625x2560.size a
  hwx0_5 : ∀ i : grid0.Coords, EltTy.bits .f32 = 32 ∨ (Rect.block (s := S625x2560) S625x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x5888.size a ≤ S16x100096.size a
  hwx1_0 : ∀ i : grid1.Coords, EltTy.bits .f32 = 32 ∨ (Rect.block (s := S16x100096) S16x5888.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x5888.size a ≤ S16x100096.size a
  hwx1_1 : ∀ i : grid1.Coords, EltTy.bits .f32 = 32 ∨ (Rect.block (s := S16x100096) S16x5888.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x5888.size a ≤ S1x100096.size a
  hwx1_2 : ∀ i : grid1.Coords, EltTy.bits .f32 = 32 ∨ (Rect.block (s := S1x100096) S1x5888.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x5888.size a ≤ S1x100096.size a
  hwx1_3 : ∀ i : grid1.Coords, EltTy.bits .f32 = 32 ∨ (Rect.block (s := S1x100096) S1x5888.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x5888.size a ≤ S1x100096.size a
  hwx1_4 : ∀ i : grid1.Coords, EltTy.bits .f32 = 32 ∨ (Rect.block (s := S1x100096) S1x5888.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x5888.size a ≤ S1x100096.size a
  hwx1_5 : ∀ i : grid1.Coords, EltTy.bits .f32 = 32 ∨ (Rect.block (s := S1x100096) S1x5888.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S16x5888.size a ≤ S16x100096.size a
  hwx1_6 : ∀ i : grid1.Coords, EltTy.bits .f32 = 32 ∨ (Rect.block (s := S16x100096) S16x5888.size (cc1_transform_6 i) (hinb1_6 i)).WholeWords (EltTy.packing .f32)

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100096x16_S1600000x1_S1600000x16_1_0_0_1 : ScatterDims S100096x16 S1600000x1 S1600000x16 where
  updateWindowDims := [1]
  insertedWindowDims := [0]
  scatterDimsToOperandDims := [0]
  indexVectorDim := 1
  wf := scatter_S100096x16_S1600000x1_S1600000x16_1_0_0_1_wf

abbrev win0_0 : Pipeline.Window sig grid0 :=
  Pipeline.Window.ofSpec (Memref.whole main_v1) S625x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S625x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S625x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S625x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S625x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S625x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S16x5888.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S16x5888.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x5888.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x5888.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x5888.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x5888.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32) S16x5888.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16x100000 : Shape := ⟨2, ![16, 100000]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S16x1600000 : Shape := ⟨2, ![16, 1600000]⟩
abbrev S1x1600000 : Shape := ⟨2, ![1, 1600000]⟩
abbrev S1x100000 : Shape := ⟨2, ![1, 100000]⟩

abbrev nBuf : Space → Nat
  | .hbm => 63
  | .vmem => 0
  | .smem => 0
  | _ => 0

abbrev bufTy : (tb : Table) → Fin (tcTables nBuf tb) → BufTy
  | .hbm, ⟨0, _⟩ => ⟨S16x100000, .f32⟩
  | .hbm, ⟨1, _⟩ => ⟨S1600000, .f32⟩
  | .hbm, ⟨2, _⟩ => ⟨S100000, .f32⟩
  | .hbm, ⟨3, _⟩ => ⟨S100000, .f32⟩
  | .hbm, ⟨4, _⟩ => ⟨S100000, .f32⟩
  | .hbm, ⟨5, _⟩ => ⟨S100000, .f32⟩
  | .hbm, ⟨6, _⟩ => ⟨S1600000, .f32⟩
  | .hbm, ⟨7, _⟩ => ⟨S1600000, .f32⟩
  | .hbm, ⟨8, _⟩ => ⟨S1600000, .f32⟩
  | .hbm, ⟨9, _⟩ => ⟨S1600000, .i32⟩
  | .hbm, ⟨10, _⟩ => ⟨S1600000, .i32⟩
  | .hbm, ⟨11, _⟩ => ⟨S1600000, .i1⟩
  | .hbm, ⟨12, _⟩ => ⟨S1600000, .f32⟩
  | .hbm, ⟨13, _⟩ => ⟨S1600000, .f32⟩
  | .hbm, ⟨14, _⟩ => ⟨S1600000, .f32⟩
  | .hbm, ⟨15, _⟩ => ⟨S1600000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S16x1600000, .f32⟩
  | .hbm, ⟨25, _⟩ => ⟨S1x1600000, .f32⟩
  | .hbm, ⟨26, _⟩ => ⟨S16x1600000, .f32⟩
  | .hbm, ⟨27, _⟩ => ⟨S16x1600000, .f32⟩
  | .hbm, ⟨28, _⟩ => ⟨S_, .f32⟩
  | .hbm, ⟨29, _⟩ => ⟨S16x100000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S16x100000, .f32⟩
  | .hbm, ⟨39, _⟩ => ⟨S100000, .f32⟩
  | .hbm, ⟨40, _⟩ => ⟨S100000, .f32⟩
  | .hbm, ⟨41, _⟩ => ⟨S1x100000, .f32⟩
  | .hbm, ⟨42, _⟩ => ⟨S16x100000, .f32⟩
  | .hbm, ⟨43, _⟩ => ⟨S16x100000, .f32⟩
  | .hbm, ⟨44, _⟩ => ⟨S16x100000, .f32⟩
  | .hbm, ⟨45, _⟩ => ⟨S1x100000, .f32⟩
  | .hbm, ⟨46, _⟩ => ⟨S1x100000, .f32⟩
  | .hbm, ⟨47, _⟩ => ⟨S16x100000, .f32⟩
  | .hbm, ⟨48, _⟩ => ⟨S16x100000, .f32⟩
  | .hbm, ⟨49, _⟩ => ⟨S16x100000, .f32⟩
  | .hbm, ⟨50, _⟩ => ⟨S16x100000, .f32⟩
  | .hbm, ⟨51, _⟩ => ⟨S16x100000, .f32⟩
  | .hbm, ⟨52, _⟩ => ⟨S_, .f32⟩
  | .hbm, ⟨53, _⟩ => ⟨S16x100000, .f32⟩
  | .hbm, ⟨54, _⟩ => ⟨S16x100000, .f32⟩
  | .hbm, ⟨55, _⟩ => ⟨S16x100000, .f32⟩
  | .hbm, ⟨56, _⟩ => ⟨S1x100000, .f32⟩
  | .hbm, ⟨57, _⟩ => ⟨S_, .f32⟩
  | .hbm, ⟨58, _⟩ => ⟨S_, .f32⟩
  | .hbm, ⟨59, _⟩ => ⟨S16x100000, .f32⟩
  | .hbm, ⟨60, _⟩ => ⟨S16x100000, .f32⟩
  | .hbm, ⟨61, _⟩ => ⟨S16x100000, .f32⟩
  | .hbm, ⟨62, _⟩ => ⟨S16x100000, .f32⟩
  | _, _ => ⟨S16x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000_S1x1600000_1 : S1600000.BroadcastsInDim S1x1600000 (![1] : Fin 1 → Fin S1x1600000.rank)
  bcast_S1x1600000_S16x1600000_0_1 : S1x1600000.BroadcastsInDim S16x1600000 (![0, 1] : Fin 2 → Fin S16x1600000.rank)
  bcast_S_S16x100000 : S_.BroadcastsInDim S16x100000 (![] : Fin 0 → Fin S16x100000.rank)
  bcast_S100000_S1x100000_1 : S100000.BroadcastsInDim S1x100000 (![1] : Fin 1 → Fin S1x100000.rank)
  bcast_S1x100000_S16x100000_0_1 : S1x100000.BroadcastsInDim S16x100000 (![0, 1] : Fin 2 → Fin S16x100000.rank)
  gather_S16x100000_S1600000x1_S16x1600000_0_1_n_n_1_1_161_wf : GatherDims.WF S16x100000 S1600000x1 S16x1600000 [0] [1] [] [1] [] 1 ![16, 1]
  scatter_S16x100000_S1600000x1_S16x1600000_0_1_1_1_wf : ScatterDims.WF S16x100000 S1600000x1 S16x1600000 [0] [1] [1] 1

variable [Facts₀]

def gather_S16x100000_S1600000x1_S16x1600000_0_1_n_n_1_1_161 : GatherDims S16x100000 S1600000x1 S16x1600000 where
  offsetDims := [0]
  collapsedSliceDims := [1]
  operandBatchingDims := []
  startIndicesBatchingDims := []
  startIndexMap := [1]
  indexVectorDim := 1
  sliceSizes := ![16, 1]
  wf := gather_S16x100000_S1600000x1_S16x1600000_0_1_n_n_1_1_161_wf
def scatter_S16x100000_S1600000x1_S16x1600000_0_1_1_1 : ScatterDims S16x100000 S1600000x1 S16x1600000 where
  updateWindowDims := [0]
  insertedWindowDims := [1]
  scatterDimsToOperandDims := [1]
  indexVectorDim := 1
  wf := scatter_S16x100000_S1600000x1_S16x1600000_0_1_1_1_wf

class Facts : Prop extends Facts₀ where

variable [Facts]
-- ==== Proof.StepSpec.lean ====
/-
  One explicit Euler step of a bounded message-passing dynamics on a graph of 100000 nodes and 1600000 directed
  edges, for 16 states at once, written index by index on the extended reals.

  Edge p carries the weight  w p = (tanh θ_p if the edge is learnable, else sign_p · conf_p) · delay_p.
  It reads node  s p : its source word, a negative word shifted up by the node count, the result read as a signed
  integer and clamped to the node range.  The message of state b along p is  x[b, s p] · w p.
  Node n collects the messages of the edges whose destination word, read signed, is n:
      a[b, n] = 0 + Σ_p (if dst_p = n then x[b, s p] · w p else 0).
  The state moves by
      x'[b, n] = min cap_n (max 0 (x[b, n] + 0.1 · ((base_n · exp ratelog_n) · (tanh (a[b, n] + bias_n) · cap_n − x[b, n])))).
  The two float constants are kept as the words both programs print.
-/
import Idealize.ShloMosaic.PureOps.Ideal
import Idealize.ShloMosaic.Lib.ValueIdx

noncomputable section

namespace Cert.Msg

open Idealize.ShloMosaic Idealize.ShloMosaic.ValueIdx

abbrev SX : Shape := ⟨2, ![16, 100000]⟩
abbrev SE : Shape := ⟨1, ![1600000]⟩
abbrev SN : Shape := ⟨1, ![100000]⟩

/-- The weight of an edge from its four numbers and its learnable bit. -/
def weight (th sg cf dl : EReal) (mk : BitVec 1) : EReal :=
  Scalar.select mk (Ideal.tanh th) (sg * cf) * dl

/-- An index word with a negative value shifted up by the node count (32-bit arithmetic). -/
def wrapWord (s : BitVec 32) : BitVec 32 :=
  Scalar.select (IntOp.cmpi .slt s 0#32) (IntOp.addi s 100000#32) s

/-- The node a start word reads: the word as a signed integer, clamped to the node range. -/
def clampNode (s : BitVec 32) : Fin 100000 := ⟨min s.toInt.toNat (100000 - 1), by omega⟩

/-- The weight of edge p. -/
def edgeW (th sg cf dl : SE.Idx → EReal) (mk : IVec SE 1) (p : Fin 1600000) : EReal :=
  weight (th (ix1 p)) (sg (ix1 p)) (cf (ix1 p)) (dl (ix1 p)) (mk (ix1 p))

/-- The message of state b along edge p. -/
def message (x : SX.Idx → EReal) (th sg cf dl : SE.Idx → EReal) (src : IVec SE 32) (mk : IVec SE 1)
    (b : Fin 16) (p : Fin 1600000) : EReal :=
  x (ix2 b (clampNode (wrapWord (src (ix1 p))))) * edgeW th sg cf dl mk p

/-- What node n collects for state b. -/
def collected (x : SX.Idx → EReal) (th sg cf dl : SE.Idx → EReal) (src dst : IVec SE 32) (mk : IVec SE 1)
    (b : Fin 16) (n : ℕ) : EReal :=
  Ideal.ofBits .f32 0x00000000#32
    + ∑ p : Fin 1600000, if (dst (ix1 p)).toInt = ((n : ℕ) : Int) then message x th sg cf dl src mk b p else 0

/-- The bounded update of one state entry from what its node collected. -/
def update (a xv bias rl base cap : EReal) : EReal :=
  min cap (max (Ideal.ofBits .f32 0x00000000#32)
    (xv + Ideal.ofBits .f32 0x3DCCCCCD#32 * ((base * Ideal.exp rl) * (Ideal.tanh (a + bias) * cap - xv))))

/-- The next state, index by index. -/
def next (x : SX.Idx → EReal) (th : SE.Idx → EReal) (bias rl base cap : SN.Idx → EReal) (sg cf dl : SE.Idx → EReal)
    (src dst : IVec SE 32) (mk : IVec SE 1) : SX.Idx → EReal := fun i =>
  update (collected x th sg cf dl src dst mk (i 0) (i 1).val) (x i)
    (bias (ix1 (i 1))) (rl (ix1 (i 1))) (base (ix1 (i 1))) (cap (ix1 (i 1)))

/-- A word that is not negative is its own shifted word. -/
theorem wrapWord_of_nonneg (s : BitVec 32) (h : 0 ≤ s.toInt) : wrapWord s = s := by
  unfold wrapWord
  have hs : s.slt 0#32 = false := by
    have h0 : (0#32 : BitVec 32).toInt = 0 := by decide
    simp only [BitVec.slt, h0, decide_eq_false_iff_not]
    omega
  have hc : IntOp.cmpi .slt s 0#32 = 0#1 := by
    show BitVec.ofBool (s.slt 0#32) = 0#1
    rw [hs]; rfl
  rw [hc]
  exact select_zero _ _

end Cert.Msg

end
-- ==== Proof.DstRange.lean ====
/-
  The precondition, read back at the destination words.

  The precondition is a conjunction of one-bit scalars: for each float input the bit "every entry is finite", and, last,
  the bit "every destination word is at least 0, read signed", which is the conjunction over all 1600000 edges of the
  signed comparison of the edge's destination word against the zero word.  The claim assumes that the whole conjunction
  is 1.  A conjunction of two bits that is 1 has both bits 1, so the last conjunct is 1; a conjunction over all edges that
  is 1 has the bit of every edge 1; and the bit of the signed comparison  dst_p ≥ 0  being 1 says  0 ≤ dst_p  as signed
  integers.  Only the last conjunct is read; the finiteness bits are left alone.
-/
import proofs.«417327_j74921409511756_3_alg».proof.Defs
import Idealize.ShloMosaic.Lib.ValueIdx
import Idealize.ShloMosaic.Lib.ReduceAll

noncomputable section

namespace Cert.DstRange

open Idealize.ShloMosaic Idealize.ShloMosaic.ValueIdx Idealize.SL.Sem

/-- The scalar shape has one index. -/
instance : Subsingleton Cert.Pre_finite_inputs.S_.Idx := ⟨fun a b => funext fun d => d.elim0⟩

/-- The bit of the signed comparison "word ≥ zero word" being 1 says the word, read signed, is not negative. -/
theorem nonneg_of_sge (x : BitVec 32) (e : IntOp.cmpi .sge x 0#32 = 1#1) : 0 ≤ x.toInt := by
  have e' : (0#32 : BitVec 32).toInt ≤ x.toInt := IntOp.cmpi_sge.1 e
  have h0 : (0#32 : BitVec 32).toInt = 0 := by decide
  rw [h0] at e'
  exact e'

/-- A conjunction whose last conjunct is "all words of d are at least the zero word, signed", being 1, makes every word
    of d non-negative: the last conjunct is 1, so the comparison's bit is 1 at every index, and there the zero word
    spread over the array reads 0. -/
theorem all_nonneg [Cert.Pre_finite_inputs.Facts] (rest : IVec Cert.Pre_finite_inputs.S_ 1)
    (d : IVec Cert.Pre_finite_inputs.S1600000 32)
    (e : andi rest
        (Host.reduce IntOp.andi
          (cmpi .sge d (broadcastInDim Cert.Pre_finite_inputs.S1600000 ![] Cert.Pre_finite_inputs.Facts.bcast_S_S1600000
            (constantI Cert.Pre_finite_inputs.S_ 32 0#32)))
          (constantI Cert.Pre_finite_inputs.S_ 1 1#1)
          Cert.Pre_finite_inputs.Facts.reducesTo_S1600000_S_d0 Cert.Pre_finite_inputs.Facts.h_S_) ix0 = 1#1)
    (p : Fin 1600000) : 0 ≤ (d (ix1 p)).toInt := by
  have e2 := (IntOp.andi_eq_one.1 e).2
  have e3 := Host.reduce_andi_all _ _ _ _ ix0 e2 (ix1 p)
  exact nonneg_of_sge _ e3

/-- THE PRECONDITION DECODED: on every device, every destination word is non-negative as a signed integer. -/
theorem dst_nonneg [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ p : Fin 1600000, 0 ≤ ((m ((c.tc : Thread Cert.KernelIdeal.nD Cert.KernelIdeal.τ).loc Cert.KernelIdeal.main_arg10)) (ix1 p)).toInt := by
  intro p
  have e := congrFun (h c) ix0
  dsimp only [Cert.Pre_finite_inputs.fn, Cert.Pre_finite_inputs.fn_part1, Cert.Pre_finite_inputs.fn_part2] at e
  exact all_nonneg _ _ e p

end Cert.DstRange

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibColumnMaps.lean ====
/-
  Index maps of the one-index gather and scatter along the SECOND axis of a two-axis array, read at one element.

  The arrays here are [f × n]: f rows that are carried along, n columns that are addressed.  The addresses are an
  [e × 1] column of index words (the index vector on axis 1, one component, sent to operand axis 1).

  A gather with operand axis 1 collapsed and result axis 0 an offset axis of full height builds an [f × e] result:
  result element (c, p) is the operand's element (c, k), where the column k is

      min (toNat (idx[p, 0] read as a signed integer)) (n − 1):

  a negative word reads column 0, a word past the last column reads column n − 1, and a word that is a column
  number reads that column.  No hypothesis is made on the index words.

  A scatter of [f × e] updates with update axis 0 a window axis and operand axis 1 inserted sends update column p to
  operand column idx[p, 0], read as a signed integer and NOT clamped: update (c, p) lands on element (c', r) exactly
  when that integer is r and c = c'.  Summed over the updates, the accumulating scatter leaves at (c, r) the array's
  element plus row c of every update column whose index word reads r.

  These are the statements for the first axis addressed, with the two operand axes exchanged.  Each statement takes
  the dimension numbers' fields as hypotheses, so it applies to any record with those fields.
-/
import Idealize.ShloMosaic.PureOps.Ideal
import Idealize.ShloMosaic.PureOps.Contract
import Idealize.ShloMosaic.Lib.ValueIdx
import proofs.«417327_j74921409511756_3_alg».proof.Proof.LibIndexMaps

noncomputable section

namespace Cert.LibColumnMaps

open Idealize.ShloMosaic Idealize.ShloMosaic.ValueIdx Cert.Gcn.IndexMaps

/-! ## Axes -/

/-- Of two axes, the ones kept beside the first are the second alone. -/
theorem kept_fst {s : Shape} (hr : s.rank = 2) (axes : List (Fin s.rank))
    (hne : ∃ a ∈ axes, a.val = 0) : ∀ x ∈ s.kept axes, x.val = 1 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-! ## The gather of columns -/

/-- Result element (c, p) reads its one start-index component at (p, 0). -/
theorem gatherCol_siIdx {s : Shape} {e f : ℕ} (d : GatherDims s ⟨2, ![e, 1]⟩ ⟨2, ![f, e]⟩)
    (hod : d.offsetDims = [0]) (hivd : d.indexVectorDim = 1) (j : (⟨2, ![f, e]⟩ : Shape).Idx)
    (c : Fin d.startIndexMap.length) :
    d.siIdx j c = ix2 (n0 := e) (n1 := 1) (j 1) 0 := by
  have hbd : ∀ x ∈ d.batchDims, x.val = 1 :=
    kept_fst rfl _ (by rw [hod]; exact ⟨0, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val1 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- [f × n] operand of n > 0 columns, [e × 1] start indices, [f × e] result, the first axis an offset axis of full
    height: result element (c, p) is the operand's element (c, k), where the column k is the index word at (p, 0)
    read signed, as a natural number, clamped to the last column n − 1. -/
theorem gatherCol_clamp_apply {α : Type} {f n e w : ℕ} (hn : 0 < n) (d : GatherDims ⟨2, ![f, n]⟩ ⟨2, ![e, 1]⟩ ⟨2, ![f, e]⟩)
    (hod : d.offsetDims = [0]) (hcoll : d.collapsedSliceDims = [1]) (hob : d.operandBatchingDims = [])
    (hsim : d.startIndexMap = [1]) (hivd : d.indexVectorDim = 1)
    (x : (⟨2, ![f, n]⟩ : Shape).Idx → α) (idx : IVec ⟨2, ![e, 1]⟩ w) (c : Fin f) (p : Fin e) :
    Host.gather d x idx (ix2 c p) = x (ix2 c ⟨min (idx (ix2 p (0 : Fin 1))).toInt.toNat (n - 1), by omega⟩) := by
  unfold Host.gather
  congr 1
  funext a
  apply Fin.ext
  have hb : ∀ a : Fin 2, a ∉ d.operandBatchingDims := by intro a; rw [hob]; exact List.not_mem_nil
  show d.start (ix2 c p) idx a + d.batchCoord (ix2 c p) a + d.offCoord (ix2 c p) a
    = (ix2 c (⟨min (idx (ix2 p (0 : Fin 1))).toInt.toNat (n - 1), by omega⟩ : Fin n) a).val
  rw [GatherDims.batchCoord_eq_zero _ _ _ (hb a)]
  rcases fin2_cases a with rfl | rfl
  · have hkp : (0 : Fin 2) ∈ d.sKept := by rw [GatherDims.mem_sKept, hcoll, hob]; simp
    have hm : (0 : Fin 2) ∉ d.startIndexMap := by rw [hsim]; simp
    unfold GatherDims.start GatherDims.offCoord
    rw [dif_neg hm, dif_pos hkp]
    show 0 + 0 + ((ix2 c p) _).val = c.val
    have hall : ∀ x ∈ d.offsetDims, x.val = 0 := by rw [hod]; simp
    rw [coord_of_val0 (ix2 c p) _ (hall _ (List.getElem_mem _))]
    show 0 + 0 + c.val = c.val
    omega
  · have hkp : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    rw [GatherDims.offCoord_eq_zero _ _ _ hkp]
    unfold GatherDims.start
    rw [dif_pos hm, gatherCol_siIdx d hod hivd, hsl]
    rfl

/-! ## The scatter of columns -/

/-- Update (c, p) reads its one start-index component at (p, 0). -/
theorem scatterCol_siIdx {f n e : ℕ} (d : ScatterDims ⟨2, ![f, n]⟩ ⟨2, ![e, 1]⟩ ⟨2, ![f, e]⟩)
    (huw : d.updateWindowDims = [0]) (hivd : d.indexVectorDim = 1) (j : (⟨2, ![f, e]⟩ : Shape).Idx)
    (c : Fin d.scatterDimsToOperandDims.length) :
    d.siIdx j c = ix2 (n0 := e) (n1 := 1) (j 1) 0 := by
  have hus : ∀ x ∈ d.uScatter, x.val = 1 :=
    kept_fst rfl _ (by rw [huw]; exact ⟨0, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val1 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- [f × n] operand, [e × 1] scatter indices, [f × e] updates, the first axis a window axis: update (c, p) lands on
    element (c', r) exactly when the index word at (p, 0), read signed, is r and c = c'. -/
theorem scatterCol_resultIdx_iff {f n e w : ℕ} (d : ScatterDims ⟨2, ![f, n]⟩ ⟨2, ![e, 1]⟩ ⟨2, ![f, e]⟩)
    (huw : d.updateWindowDims = [0]) (hiw : d.insertedWindowDims = [1])
    (hsd : d.scatterDimsToOperandDims = [1]) (hivd : d.indexVectorDim = 1)
    (idx : IVec ⟨2, ![e, 1]⟩ w) (j : (⟨2, ![f, e]⟩ : Shape).Idx) (i : (⟨2, ![f, n]⟩ : Shape).Idx) :
    d.resultIdx? j idx = some i ↔
      (idx (ix2 (j 1) (0 : Fin 1))).toInt = (((i 1).val : ℕ) : Int) ∧ (j 0).val = (i 0).val := by
  have hm1 : (1 : Fin 2) ∈ d.scatterDimsToOperandDims := by rw [hsd]; exact List.mem_singleton.mpr rfl
  have hm0 : (0 : Fin 2) ∉ d.scatterDimsToOperandDims := by rw [hsd]; simp
  have hk1 : (1 : Fin 2) ∉ d.sKept := by rw [ScatterDims.sKept, mem_kept, hiw]; simp
  have hk0 : (0 : Fin 2) ∈ d.sKept := by rw [ScatterDims.sKept, mem_kept, hiw]; simp
  have hs1 : d.start j idx 1 = (idx (ix2 (j 1) (0 : Fin 1))).toInt := by
    unfold ScatterDims.start
    rw [dif_pos hm1, scatterCol_siIdx d huw hivd]
  have hs0 : d.start j idx 0 = 0 := by
    unfold ScatterDims.start
    rw [dif_neg hm0]
  have hw1 : d.window j 1 = 0 := by
    unfold ScatterDims.window
    rw [dif_neg hk1]
  have hw0 : d.window j 0 = (j 0).val := by
    unfold ScatterDims.window
    rw [dif_pos hk0]
    refine coord_of_val0 j _ ?_
    have hall : ∀ x ∈ d.updateWindowDims, x.val = 0 := by rw [huw]; simp
    exact hall _ (List.getElem_mem _)
  have hlt1 : (i 1).val < n := (i 1).isLt
  have hlt0 : (i 0).val < f := (i 0).isLt
  have hjlt0 : (j 0).val < f := (j 0).isLt
  unfold ScatterDims.resultIdx?
  split_ifs with h
  · rw [Option.some.injEq]
    have h1 := h 1
    rw [hs1, hw1] at h1
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0]
        show (0 : Int) ≤ 0 + (((j 0).val : ℕ) : Int) ∧ (0 : Int) + (((j 0).val : ℕ) : Int) < (f : ℕ)
        omega
      · rw [hs1, hw1, he]
        show (0 : Int) ≤ ((i 1).val : ℕ) + ((0 : ℕ) : Int) ∧ (((i 1).val : ℕ) : Int) + ((0 : ℕ) : Int) < (n : ℕ)
        omega

/-- The same, by coordinates. -/
theorem scatterCol_resultIdx_ix_iff {f n e w : ℕ} (d : ScatterDims ⟨2, ![f, n]⟩ ⟨2, ![e, 1]⟩ ⟨2, ![f, e]⟩)
    (huw : d.updateWindowDims = [0]) (hiw : d.insertedWindowDims = [1])
    (hsd : d.scatterDimsToOperandDims = [1]) (hivd : d.indexVectorDim = 1)
    (idx : IVec ⟨2, ![e, 1]⟩ w) (c : Fin f) (p : Fin e) (c' : Fin f) (r : Fin n) :
    d.resultIdx? (ix2 c p) idx = some (ix2 c' r) ↔
      (idx (ix2 p (0 : Fin 1))).toInt = ((r.val : ℕ) : Int) ∧ c = c' := by
  rw [scatterCol_resultIdx_iff d huw hiw hsd hivd idx (ix2 c p) (ix2 c' r)]
  exact and_congr Iff.rfl Fin.val_inj

/-- The accumulating scatter of [f × e] updates on the extended reals, read at element (c, r): the operand's element
    plus row c of the update columns whose index word reads r. -/
theorem hostScatterAddCol_apply {f n e w : ℕ} (d : ScatterDims ⟨2, ![f, n]⟩ ⟨2, ![e, 1]⟩ ⟨2, ![f, e]⟩)
    (huw : d.updateWindowDims = [0]) (hiw : d.insertedWindowDims = [1])
    (hsd : d.scatterDimsToOperandDims = [1]) (hivd : d.indexVectorDim = 1)
    (x : (⟨2, ![f, n]⟩ : Shape).Idx → EReal) (idx : IVec ⟨2, ![e, 1]⟩ w) (upd : (⟨2, ![f, e]⟩ : Shape).Idx → EReal)
    (c : Fin f) (r : Fin n) :
    Ideal.hostScatterAdd d x idx upd (ix2 c r)
      = x (ix2 c r) + ∑ p : Fin e, if (idx (ix2 p (0 : Fin 1))).toInt = ((r.val : ℕ) : Int) then upd (ix2 c p) else 0 := by
  unfold Ideal.hostScatterAdd
  congr 1
  rw [Finset.sum_filter, sum_idx2, Finset.sum_comm]
  refine Finset.sum_congr rfl (fun p _ => ?_)
  simp only [scatterCol_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-- The accumulating scatter of columns in the host operation's own spelling, read at element (c, r). -/
theorem scatterAddCol_apply {φ : FTy} {f n e w : ℕ} (d : ScatterDims ⟨2, ![f, n]⟩ ⟨2, ![e, 1]⟩ ⟨2, ![f, e]⟩)
    (huw : d.updateWindowDims = [0]) (hiw : d.insertedWindowDims = [1])
    (hsd : d.scatterDimsToOperandDims = [1]) (hivd : d.indexVectorDim = 1)
    (x : FVec Ideal ⟨2, ![f, n]⟩ φ) (idx : IVec ⟨2, ![e, 1]⟩ w) (upd : FVec Ideal ⟨2, ![f, e]⟩ φ)
    (c : Fin f) (r : Fin n) :
    Host.scatterAdd (F := Ideal) d x idx upd (ix2 c r)
      = x (ix2 c r) + ∑ p : Fin e, if (idx (ix2 p (0 : Fin 1))).toInt = ((r.val : ℕ) : Int) then upd (ix2 c p) else 0 :=
  hostScatterAddCol_apply d huw hiw hsd hivd x idx upd c r

end Cert.LibColumnMaps

end
-- ==== Proof.RefStep.lean ====
/-
  The host program's result, read index by index, is the step of the specification.

  The start-index column of the gather and the index column of the scatter are the source and destination words with
  a negative word shifted up by the node count; the gathered array at (b, p) is state b of the node that edge p
  reads; the array it is multiplied by is the edge weight repeated over the states; the scatter, which starts from
  the zero word's value, leaves at (b, n) that value plus the messages of the edges whose destination word is n (the
  destination words are assumed not negative, so shifting leaves them as they are). What follows the scatter acts
  on one entry at a time and is the bounded update.
-/
import proofs.«417327_j74921409511756_3_alg».proof.Proof.Gen.ReferenceIdeal.Read
import proofs.«417327_j74921409511756_3_alg».proof.Proof.StepSpec
import proofs.«417327_j74921409511756_3_alg».proof.Proof.LibColumnMaps
import Idealize.ShloMosaic.Lib.ValueIdx
import Idealize.ShloMosaic.Lib.Pipeline.Value

noncomputable section

namespace Cert.RefStep

open Cert.ReferenceIdeal Cert.ReferenceIdeal.Gen Cert.ReferenceIdeal.Read Idealize.ShloMosaic Idealize.ShloMosaic.ValueIdx

/-! ## The index words -/

/-- The start-index column of the gather at row p is the shifted source word of edge p. -/
theorem srcCol_apply (x9 : (⟨S1600000, .i32⟩ : BufTy).Contents (Elt Ideal)) (p : Fin 1600000) :
    val_main_v9 (F := Ideal) x9 (ix2 p (0 : Fin 1)) = Cert.Msg.wrapWord (x9 (ix1 p)) := by
  have hi : idx_main_v9 (ix2 p (0 : Fin 1)) = ix1 p := funext fun a => match a with | ⟨0, _⟩ => rfl
  rw [val_main_v9_apply, hi, val_main_v8_apply, val_main_v5_apply, val_main_v7_apply, val_main_v4_apply,
    val_main_v6_apply, val_main_c_apply, val_main_c_0_apply]
  rfl

/-- The index column of the scatter at row p is the shifted destination word of edge p. -/
theorem dstCol_apply (x10 : (⟨S1600000, .i32⟩ : BufTy).Contents (Elt Ideal)) (p : Fin 1600000) :
    val_main_v20 (F := Ideal) x10 (ix2 p (0 : Fin 1)) = Cert.Msg.wrapWord (x10 (ix1 p)) := by
  have hi : idx_main_v20 (ix2 p (0 : Fin 1)) = ix1 p := funext fun a => match a with | ⟨0, _⟩ => rfl
  rw [val_main_v20_apply, hi, val_main_v19_apply, val_main_v16_apply, val_main_v18_apply, val_main_v15_apply,
    val_main_v17_apply, val_main_c_1_apply, val_main_c_2_apply]
  rfl

/-! ## The edge weights and the gathered columns -/

/-- The broadcast weight array at (b, p) is the weight of edge p. -/
theorem weight_apply (x1 x6 x7 x8 : (⟨S1600000, .f32⟩ : BufTy).Contents (Elt Ideal))
    (x11 : (⟨S1600000, .i1⟩ : BufTy).Contents (Elt Ideal)) (b : Fin 16) (p : Fin 1600000) :
    val_main_v12 (F := Ideal) x1 x6 x7 x8 x11 (ix2 b p) = Cert.Msg.edgeW x1 x6 x7 x8 x11 p := by
  have h12 : idx_main_v12 (ix2 b p) = ix2 (0 : Fin 1) p :=
    funext fun a => match a with | ⟨0, _⟩ => rfl | ⟨1, _⟩ => rfl
  have h11 : idx_main_v11 (ix2 (0 : Fin 1) p) = ix1 p := funext fun a => match a with | ⟨0, _⟩ => rfl
  rw [val_main_v12_apply, h12, val_main_v11_apply, h11, val_main_v3_apply, val_main_v2_apply, val_main_v0_apply,
    val_main_v1_apply]
  rfl

/-- The gathered array at (b, p) is the state b of the node edge p reads. -/
theorem gathered_apply (x0 : (⟨S16x100000, .f32⟩ : BufTy).Contents (Elt Ideal))
    (x9 : (⟨S1600000, .i32⟩ : BufTy).Contents (Elt Ideal)) (b : Fin 16) (p : Fin 1600000) :
    val_main_v10 (F := Ideal) x0 x9 (ix2 b p)
      = x0 (ix2 b (Cert.Msg.clampNode (Cert.Msg.wrapWord (x9 (ix1 p))))) := by
  unfold val_main_v10
  rw [Cert.LibColumnMaps.gatherCol_clamp_apply (by omega) _ rfl rfl rfl rfl rfl]
  refine congrArg (fun k : Fin 100000 => x0 (ix2 b k)) (Fin.ext ?_)
  show min (BitVec.toInt (val_main_v9 (F := Ideal) x9 (ix2 p (0 : Fin 1)))).toNat (100000 - 1)
    = min (BitVec.toInt (Cert.Msg.wrapWord (x9 (ix1 p)))).toNat (100000 - 1)
  rw [srcCol_apply]

/-- The update array of the scatter at (b, p) is the message of state b along edge p. -/
theorem message_apply (x0 : (⟨S16x100000, .f32⟩ : BufTy).Contents (Elt Ideal))
    (x1 x6 x7 x8 : (⟨S1600000, .f32⟩ : BufTy).Contents (Elt Ideal))
    (x9 : (⟨S1600000, .i32⟩ : BufTy).Contents (Elt Ideal)) (x11 : (⟨S1600000, .i1⟩ : BufTy).Contents (Elt Ideal))
    (b : Fin 16) (p : Fin 1600000) :
    val_main_v13 (F := Ideal) x0 x1 x6 x7 x8 x9 x11 (ix2 b p) = Cert.Msg.message x0 x1 x6 x7 x8 x9 x11 b p := by
  rw [val_main_v13_apply, gathered_apply, weight_apply]
  rfl

/-! ## The scatter -/

/-- The scattered array at (b, n) is what node n collects for state b. -/
theorem collected_apply (x0 : (⟨S16x100000, .f32⟩ : BufTy).Contents (Elt Ideal))
    (x1 x6 x7 x8 : (⟨S1600000, .f32⟩ : BufTy).Contents (Elt Ideal))
    (x9 x10 : (⟨S1600000, .i32⟩ : BufTy).Contents (Elt Ideal)) (x11 : (⟨S1600000, .i1⟩ : BufTy).Contents (Elt Ideal))
    (hdst : ∀ p : Fin 1600000, 0 ≤ (x10 (ix1 p)).toInt) (b : Fin 16) (n : Fin 100000) :
    val_main_v21 (F := Ideal) x0 x1 x6 x7 x8 x9 x10 x11 (ix2 b n)
      = Cert.Msg.collected x0 x1 x6 x7 x8 x9 x10 x11 b n.val := by
  unfold val_main_v21
  rw [Cert.LibColumnMaps.scatterAddCol_apply _ rfl rfl rfl rfl]
  unfold Cert.Msg.collected
  refine congrArg₂ (· + ·) ?_ ?_
  · rw [val_main_v14_apply, val_main_cst_apply]
    rfl
  · refine Finset.sum_congr rfl fun p _ => ?_
    rw [dstCol_apply, Cert.Msg.wrapWord_of_nonneg _ (hdst p), message_apply]

/-! ## The pointwise update -/

theorem reference_eq (x0 : (⟨Cert.ReferenceIdeal.S16x100000, .f32⟩ : BufTy).Contents (Elt Ideal)) (x1 : (⟨Cert.ReferenceIdeal.S1600000, .f32⟩ : BufTy).Contents (Elt Ideal))
    (x2 x3 x4 x5 : (⟨Cert.ReferenceIdeal.S100000, .f32⟩ : BufTy).Contents (Elt Ideal)) (x6 x7 x8 : (⟨Cert.ReferenceIdeal.S1600000, .f32⟩ : BufTy).Contents (Elt Ideal))
    (x9 x10 : (⟨Cert.ReferenceIdeal.S1600000, .i32⟩ : BufTy).Contents (Elt Ideal)) (x11 : (⟨Cert.ReferenceIdeal.S1600000, .i1⟩ : BufTy).Contents (Elt Ideal))
    (hdst : ∀ p : Fin 1600000, 0 ≤ (x10 (ix1 p)).toInt) :
    Cert.ReferenceIdeal.Read.val_main_v39 (F := Ideal) x0 x1 x2 x3 x4 x5 x6 x7 x8 x9 x10 x11 = Cert.Msg.next x0 x1 x2 x3 x4 x5 x6 x7 x8 x9 x10 x11 := by
  funext i
  obtain ⟨b, n, rfl⟩ : ∃ (b : Fin 16) (n : Fin 100000), i = ix2 b n := ⟨i 0, i 1, eq_ix2 i⟩
  have h2 : idx_main_call1_v3 (ix2 b n) = ix2 (0 : Fin 1) n :=
    funext fun a => match a with | ⟨0, _⟩ => rfl | ⟨1, _⟩ => rfl
  have h1 : idx_main_v38 (ix2 (0 : Fin 1) n) = ix1 n := funext fun a => match a with | ⟨0, _⟩ => rfl
  rw [val_main_v39_apply, val_main_call1_v3_apply, h2, val_main_v38_apply, h1, val_main_call1_v2_apply,
    val_main_call1_v1_apply, val_main_call1_v0_apply, val_main_cst_4_apply, val_main_v37_apply, val_main_v36_apply,
    val_main_v35_apply, val_main_cst_3_apply, val_main_v34_apply, val_main_v33_apply,
    show idx_main_v33 (ix2 b n) = ix2 (0 : Fin 1) n from h2, val_main_v28_apply,
    show idx_main_v28 (ix2 (0 : Fin 1) n) = ix1 n from h1, val_main_v23_apply, val_main_v22_apply,
    val_main_v32_apply, val_main_v31_apply, val_main_v27_apply, val_main_v26_apply, val_main_v25_apply,
    show idx_main_v25 (ix2 b n) = ix2 (0 : Fin 1) n from h2, val_main_v24_apply,
    show idx_main_v24 (ix2 (0 : Fin 1) n) = ix1 n from h1, val_main_v30_apply,
    show idx_main_v30 (ix2 b n) = ix2 (0 : Fin 1) n from h2, val_main_v29_apply,
    show idx_main_v29 (ix2 (0 : Fin 1) n) = ix1 n from h1, collected_apply _ _ _ _ _ _ _ _ hdst]
  show _ = Cert.Msg.update (Cert.Msg.collected x0 x1 x6 x7 x8 x9 x10 x11 b n.val) (x0 (ix2 b n)) (x2 (ix1 n))
    (x3 (ix1 n)) (x4 (ix1 n)) (x5 (ix1 n))
  unfold Cert.Msg.update
  simp only [Ideal.hostUnary_tanh_def, Ideal.hostUnary_exp_def, Ideal.mulf_def, Ideal.addf_def, Ideal.subf_def,
    Ideal.maximumf_def, Ideal.minimumf_def, Ideal.ofBits_def]

end Cert.RefStep

end
-- ==== Proof.RegionValues.lean ====
/-
  What each of the two pipelined regions leaves in its output array, as one function of the arrays the region finds
  when it is entered.

  Region 0 walks the ten column blocks [625 × 256] of five [625 × 2560] arrays and writes the same block of the
  result: element by element the result is  select(mask ≠ 0, tanh θ, sign · conf) · delay.
  Region 1 walks the seventeen column blocks [16 × 5888] of two [16 × 100096] arrays and [1 × 5888] of four
  [1 × 100096] rows: element (b, n) of the result is the bounded update of x[b, n] from agg[b, n] and the four
  row entries at n.
  Every block index map is (0, point), so block t of every window starts at column t · width, the blocks of the
  output are disjoint and together cover the array, and the final array is that one function everywhere.
-/
import proofs.«417327_j74921409511756_3_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix2 eq_ix2 broadcastTo_1b_ab_apply)

variable {F : FTy → Type} [FloatOps F]
variable (V : (c : Dev nD) → (b : Ref sig .tc) → Buf (Elt F) ((c : Thread nD τ).loc b))

theorem offs_zero : (![0, 0] : Fin 2 → Nat) = fun _ => 0 := funext fun a => by fin_cases a <;> rfl

/-! ## Region 0: the edge weights -/

/-- The edge weight, element by element, of the five arrays the region reads. -/
abbrev weights (th sg cf dl mk : S625x2560.Idx → Elt F .f32) : S625x2560.Idx → Elt F .f32 := fun i =>
  FloatOps.mulf (Scalar.select (FloatOps.cmpf .one (mk i) (Scalar.ofBits .f32 0x00000000#32)) (FloatOps.tanh (th i))
    (FloatOps.mulf (sg i) (cf i))) (dl i)

/-- The body's stored value is that expression of its five loaded blocks. -/
theorem pay0_eq (x0 x1 x2 x3 x4 : Vec F S625x256 .f32) :
    k0_pay1 x0 x1 x2 x3 x4 = fun j => FloatOps.mulf (Scalar.select (FloatOps.cmpf .one (x4 j) (Scalar.ofBits .f32 0x00000000#32))
      (FloatOps.tanh (x0 j)) (FloatOps.mulf (x1 j) (x2 j))) (x3 j) := by
  unfold k0_pay1
  simp only [shapeCast_self]
  rfl

/-- The index maps over the grid: every window's block index is (0, point). -/
theorem idx_facts0 : ∀ t : Fin cfg0.N, win0_0.index t (0 : Fin 2) = win0_5.index t (0 : Fin 2)
    ∧ win0_0.index t (1 : Fin 2) = win0_5.index t (1 : Fin 2)
    ∧ win0_1.index t (0 : Fin 2) = win0_5.index t (0 : Fin 2)
    ∧ win0_1.index t (1 : Fin 2) = win0_5.index t (1 : Fin 2)
    ∧ win0_2.index t (0 : Fin 2) = win0_5.index t (0 : Fin 2)
    ∧ win0_2.index t (1 : Fin 2) = win0_5.index t (1 : Fin 2)
    ∧ win0_3.index t (0 : Fin 2) = win0_5.index t (0 : Fin 2)
    ∧ win0_3.index t (1 : Fin 2) = win0_5.index t (1 : Fin 2)
    ∧ win0_4.index t (0 : Fin 2) = win0_5.index t (0 : Fin 2)
    ∧ win0_4.index t (1 : Fin 2) = win0_5.index t (1 : Fin 2)
    ∧ win0_5.index t (0 : Fin 2) = 0 ∧ win0_5.index t (1 : Fin 2) ≤ 9 :=
  (by decide +kernel : ∀ t : Fin grid0.N, _)

/-- Every column block is some point's. -/
theorem idx_onto0 : ∀ q : Fin 10, ∃ t : Fin cfg0.N, win0_5.index t = ![0, q.val] :=
  (by decide +kernel : ∀ q : Fin 10, ∃ t : Fin grid0.N, win0_5.index t = ![0, q.val])

/-- What point t writes back is block t of the weights of the arrays the region found. -/
theorem flushed0 (c : Dev nD) (t : Fin cfg0.N) :
    (dat0 V c).flushed 5 t = ((cfg0.win 5).blk t).view.read (Elt F)
      (weights (V c main_v1) (V c main_v2) (V c main_v3) (V c main_v4) (V c main_v5)) := by
  show (cfg0.win 5).cut (grid0.coords t) ((dat0 V c).after 5 t) = _
  rw [after0_5]
  unfold out0_5
  rw [View.canon_unit_zero offs_zero]
  simp only [View.ld_unit_zero (S := S625x256) offs_zero]
  rw [pay0_eq]
  obtain ⟨e00, e01, e10, e11, e20, e21, e30, e31, e40, e41, e5, e6⟩ := idx_facts0 t
  funext j
  show FloatOps.mulf (Scalar.select (FloatOps.cmpf .one (V c main_v5 (((cfg0.win 4).blk t).view.emb j)) (Scalar.ofBits .f32 0x00000000#32))
        (FloatOps.tanh (V c main_v1 (((cfg0.win 0).blk t).view.emb j)))
        (FloatOps.mulf (V c main_v2 (((cfg0.win 1).blk t).view.emb j)) (V c main_v3 (((cfg0.win 2).blk t).view.emb j))))
        (V c main_v4 (((cfg0.win 3).blk t).view.emb j))
    = FloatOps.mulf (Scalar.select (FloatOps.cmpf .one (V c main_v5 (((cfg0.win 5).blk t).view.emb j)) (Scalar.ofBits .f32 0x00000000#32))
        (FloatOps.tanh (V c main_v1 (((cfg0.win 5).blk t).view.emb j)))
        (FloatOps.mulf (V c main_v2 (((cfg0.win 5).blk t).view.emb j)) (V c main_v3 (((cfg0.win 5).blk t).view.emb j))))
        (V c main_v4 (((cfg0.win 5).blk t).view.emb j))
  have h0 : ((cfg0.win 0).blk t).view.emb j = ((cfg0.win 5).blk t).view.emb j := by
    funext a; apply Fin.ext
    match a with
    | ⟨0, _⟩ => show win0_0.index t (0 : Fin 2) * 625 + 1 * (j 0).val = win0_5.index t (0 : Fin 2) * 625 + 1 * (j 0).val; omega
    | ⟨1, _⟩ => show win0_0.index t (1 : Fin 2) * 256 + 1 * (j 1).val = win0_5.index t (1 : Fin 2) * 256 + 1 * (j 1).val; omega
  have h1 : ((cfg0.win 1).blk t).view.emb j = ((cfg0.win 5).blk t).view.emb j := by
    funext a; apply Fin.ext
    match a with
    | ⟨0, _⟩ => show win0_1.index t (0 : Fin 2) * 625 + 1 * (j 0).val = win0_5.index t (0 : Fin 2) * 625 + 1 * (j 0).val; omega
    | ⟨1, _⟩ => show win0_1.index t (1 : Fin 2) * 256 + 1 * (j 1).val = win0_5.index t (1 : Fin 2) * 256 + 1 * (j 1).val; omega
  have h2 : ((cfg0.win 2).blk t).view.emb j = ((cfg0.win 5).blk t).view.emb j := by
    funext a; apply Fin.ext
    match a with
    | ⟨0, _⟩ => show win0_2.index t (0 : Fin 2) * 625 + 1 * (j 0).val = win0_5.index t (0 : Fin 2) * 625 + 1 * (j 0).val; omega
    | ⟨1, _⟩ => show win0_2.index t (1 : Fin 2) * 256 + 1 * (j 1).val = win0_5.index t (1 : Fin 2) * 256 + 1 * (j 1).val; omega
  have h3 : ((cfg0.win 3).blk t).view.emb j = ((cfg0.win 5).blk t).view.emb j := by
    funext a; apply Fin.ext
    match a with
    | ⟨0, _⟩ => show win0_3.index t (0 : Fin 2) * 625 + 1 * (j 0).val = win0_5.index t (0 : Fin 2) * 625 + 1 * (j 0).val; omega
    | ⟨1, _⟩ => show win0_3.index t (1 : Fin 2) * 256 + 1 * (j 1).val = win0_5.index t (1 : Fin 2) * 256 + 1 * (j 1).val; omega
  have h4 : ((cfg0.win 4).blk t).view.emb j = ((cfg0.win 5).blk t).view.emb j := by
    funext a; apply Fin.ext
    match a with
    | ⟨0, _⟩ => show win0_4.index t (0 : Fin 2) * 625 + 1 * (j 0).val = win0_5.index t (0 : Fin 2) * 625 + 1 * (j 0).val; omega
    | ⟨1, _⟩ => show win0_4.index t (1 : Fin 2) * 256 + 1 * (j 1).val = win0_5.index t (1 : Fin 2) * 256 + 1 * (j 1).val; omega
  rw [h0, h1, h2, h3, h4]

/-- An index of the array is in point t's block iff each coordinate is in the block's range on its axis. -/
theorem mem_blk0 (t : Fin cfg0.N) (i : S625x2560.Idx) :
    i ∈ ((cfg0.win 5).blk t).view.set ↔ ∀ a : Fin 2, win0_5.index t a * S625x256.size a ≤ (i a).val ∧ (i a).val < win0_5.index t a * S625x256.size a + S625x256.size a := by
  show i ∈ ((View.whole main_v6).slice (win0_5.rect t)).set ↔ _
  rw [View.set_slice_whole, Rect.mem_set_unit]
  exact Iff.rfl

/-- Every index of the result is in the block of the point of its column block. -/
theorem cover0 (i : S625x2560.Idx) :
    ∃ t : Fin cfg0.N, (cfg0.win 5).flush t = true ∧ i ∈ ((cfg0.win 5).blk t).view.set := by
  have hi0 : (i 0).val < 625 := (i 0).isLt
  have hi1 : (i 1).val < 2560 := (i 1).isLt
  obtain ⟨t, ht⟩ := idx_onto0 ⟨(i 1).val / 256, by omega⟩
  have q0 : win0_5.index t (0 : Fin 2) = 0 := congrFun ht 0
  have q1 : win0_5.index t (1 : Fin 2) = (i 1).val / 256 := congrFun ht 1
  refine ⟨t, flush0_5 t, ?_⟩
  rw [mem_blk0]
  intro a
  match a with
  | ⟨0, _⟩ => show win0_5.index t (0 : Fin 2) * 625 ≤ (i 0).val ∧ (i 0).val < win0_5.index t (0 : Fin 2) * 625 + 625; omega
  | ⟨1, _⟩ => show win0_5.index t (1 : Fin 2) * 256 ≤ (i 1).val ∧ (i 1).val < win0_5.index t (1 : Fin 2) * 256 + 256; omega

/-- The result array after region 0: the weights of the arrays the region found. -/
theorem final0 (c : Dev nD) :
    (dat0 V c).arrAt 5 cfg0.N = weights (V c main_v1) (V c main_v2) (V c main_v3) (V c main_v4) (V c main_v5) :=
  (dat0 V c).arrAt_eq_of_cover 5 _ (fun t _ => flushed0 V c t) cover0

/-! ## Region 1: the bounded update -/

/-- The bounded update of one entry, from what its node collected, the entry, and the node's four numbers. -/
abbrev upd (a xv bias rl base cap : Elt F .f32) : Elt F .f32 :=
  FloatOps.minimumf cap (FloatOps.maximumf (Scalar.ofBits .f32 0x00000000#32)
    (FloatOps.addf xv (FloatOps.mulf (Scalar.ofBits .f32 0x3DCCCCCD#32)
      (FloatOps.mulf (FloatOps.mulf base (FloatOps.exp rl)) (FloatOps.subf (FloatOps.mulf (FloatOps.tanh (FloatOps.addf a bias)) cap) xv)))))

/-- The row entry under an index of the [16 × 100096] array. -/
abbrev rowOf (i : S16x100096.Idx) : S1x100096.Idx := fun a => match a with
  | ⟨0, _⟩ => ⟨0, Nat.one_pos⟩
  | ⟨1, _⟩ => ⟨(i 1).val, (i 1).isLt⟩

/-- The update, element by element, of the six arrays the region reads. -/
abbrev updates (ag xs : S16x100096.Idx → Elt F .f32) (bs rl ba cp : S1x100096.Idx → Elt F .f32) : S16x100096.Idx → Elt F .f32 := fun i =>
  upd (ag i) (xs i) (bs (rowOf i)) (rl (rowOf i)) (ba (rowOf i)) (cp (rowOf i))

/-- The body's stored value at (p, q) is the update of the loaded blocks at (p, q) and at the rows' q. -/
theorem pay1_apply (x0 x1 : Vec F S16x5888 .f32) (x2 x3 x4 x5 : Vec F S1x5888 .f32) (p : Fin 16) (q : Fin 5888) :
    k1_pay1 x0 x1 x2 x3 x4 x5 (ix2 p q)
      = upd (x0 (ix2 p q)) (x1 (ix2 p q)) (x2 (ix2 (0 : Fin 1) q)) (x3 (ix2 (0 : Fin 1) q))
          (x4 (ix2 (0 : Fin 1) q)) (x5 (ix2 (0 : Fin 1) q)) := by
  unfold k1_pay1
  simp only [shapeCast_self]
  show FloatOps.minimumf (broadcastTo S16x5888 x5 broadcasts_S1x5888_S16x5888 (ix2 p q))
      (FloatOps.maximumf (Scalar.ofBits .f32 0x00000000#32)
        (FloatOps.addf (x1 (ix2 p q)) (FloatOps.mulf (Scalar.ofBits .f32 0x3DCCCCCD#32)
          (FloatOps.mulf (broadcastTo S16x5888 (mulf x4 (exp x3)) broadcasts_S1x5888_S16x5888 (ix2 p q))
            (FloatOps.subf (FloatOps.mulf (FloatOps.tanh (FloatOps.addf (x0 (ix2 p q))
              (broadcastTo S16x5888 x2 broadcasts_S1x5888_S16x5888 (ix2 p q))))
              (broadcastTo S16x5888 x5 broadcasts_S1x5888_S16x5888 (ix2 p q))) (x1 (ix2 p q))))))) = _
  rw [broadcastTo_1b_ab_apply x5, broadcastTo_1b_ab_apply x2, broadcastTo_1b_ab_apply (mulf x4 (exp x3))]
  rfl

theorem idx_facts1 : ∀ t : Fin cfg1.N, win1_0.index t (0 : Fin 2) = win1_6.index t (0 : Fin 2)
    ∧ win1_0.index t (1 : Fin 2) = win1_6.index t (1 : Fin 2)
    ∧ win1_1.index t (0 : Fin 2) = win1_6.index t (0 : Fin 2)
    ∧ win1_1.index t (1 : Fin 2) = win1_6.index t (1 : Fin 2)
    ∧ win1_2.index t (0 : Fin 2) = 0
    ∧ win1_2.index t (1 : Fin 2) = win1_6.index t (1 : Fin 2)
    ∧ win1_3.index t (0 : Fin 2) = 0
    ∧ win1_3.index t (1 : Fin 2) = win1_6.index t (1 : Fin 2)
    ∧ win1_4.index t (0 : Fin 2) = 0
    ∧ win1_4.index t (1 : Fin 2) = win1_6.index t (1 : Fin 2)
    ∧ win1_5.index t (0 : Fin 2) = 0
    ∧ win1_5.index t (1 : Fin 2) = win1_6.index t (1 : Fin 2)
    ∧ win1_6.index t (0 : Fin 2) = 0 ∧ win1_6.index t (1 : Fin 2) ≤ 16 :=
  (by decide +kernel : ∀ t : Fin grid1.N, _)

theorem idx_onto1 : ∀ q : Fin 17, ∃ t : Fin cfg1.N, win1_6.index t = ![0, q.val] :=
  (by decide +kernel : ∀ q : Fin 17, ∃ t : Fin grid1.N, win1_6.index t = ![0, q.val])

/-- What point t writes back is block t of the updates of the arrays the region found. -/
theorem flushed1 (c : Dev nD) (t : Fin cfg1.N) :
    (dat1 V c).flushed 6 t = ((cfg1.win 6).blk t).view.read (Elt F)
      (updates (V c main_v22) (V c main_v23) (V c main_v25) (V c main_v27) (V c main_v29) (V c main_v31)) := by
  show (cfg1.win 6).cut (grid1.coords t) ((dat1 V c).after 6 t) = _
  rw [after1_6]
  unfold out1_6
  rw [View.canon_unit_zero offs_zero]
  simp only [View.ld_unit_zero (S := S16x5888) offs_zero, View.ld_unit_zero (S := S1x5888) offs_zero]
  obtain ⟨e00, e01, e10, e11, e20, e21, e30, e31, e40, e41, e50, e51, e6, e7⟩ := idx_facts1 t
  funext j
  obtain ⟨p, q, rfl⟩ : ∃ (p : Fin 16) (q : Fin 5888), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = updates (V c main_v22) (V c main_v23) (V c main_v25) (V c main_v27) (V c main_v29) (V c main_v31) (((cfg1.win 6).blk t).view.emb (ix2 p q))
  refine (pay1_apply (iblk1 V c 0 t) (iblk1 V c 1 t) (iblk1 V c 2 t) (iblk1 V c 3 t) (iblk1 V c 4 t) (iblk1 V c 5 t) p q).trans ?_
  show upd (V c main_v22 (((cfg1.win 0).blk t).view.emb (ix2 p q))) (V c main_v23 (((cfg1.win 1).blk t).view.emb (ix2 p q)))
      (V c main_v25 (((cfg1.win 2).blk t).view.emb (ix2 (0 : Fin 1) q))) (V c main_v27 (((cfg1.win 3).blk t).view.emb (ix2 (0 : Fin 1) q)))
      (V c main_v29 (((cfg1.win 4).blk t).view.emb (ix2 (0 : Fin 1) q))) (V c main_v31 (((cfg1.win 5).blk t).view.emb (ix2 (0 : Fin 1) q)))
    = upd (V c main_v22 (((cfg1.win 6).blk t).view.emb (ix2 p q))) (V c main_v23 (((cfg1.win 6).blk t).view.emb (ix2 p q)))
      (V c main_v25 (rowOf (((cfg1.win 6).blk t).view.emb (ix2 p q)))) (V c main_v27 (rowOf (((cfg1.win 6).blk t).view.emb (ix2 p q))))
      (V c main_v29 (rowOf (((cfg1.win 6).blk t).view.emb (ix2 p q)))) (V c main_v31 (rowOf (((cfg1.win 6).blk t).view.emb (ix2 p q))))
  have h0 : ((cfg1.win 0).blk t).view.emb (ix2 p q) = ((cfg1.win 6).blk t).view.emb (ix2 p q) := by
    funext a; apply Fin.ext
    match a with
    | ⟨0, _⟩ => show win1_0.index t (0 : Fin 2) * 16 + 1 * p.val = win1_6.index t (0 : Fin 2) * 16 + 1 * p.val; omega
    | ⟨1, _⟩ => show win1_0.index t (1 : Fin 2) * 5888 + 1 * q.val = win1_6.index t (1 : Fin 2) * 5888 + 1 * q.val; omega
  have h1 : ((cfg1.win 1).blk t).view.emb (ix2 p q) = ((cfg1.win 6).blk t).view.emb (ix2 p q) := by
    funext a; apply Fin.ext
    match a with
    | ⟨0, _⟩ => show win1_1.index t (0 : Fin 2) * 16 + 1 * p.val = win1_6.index t (0 : Fin 2) * 16 + 1 * p.val; omega
    | ⟨1, _⟩ => show win1_1.index t (1 : Fin 2) * 5888 + 1 * q.val = win1_6.index t (1 : Fin 2) * 5888 + 1 * q.val; omega
  have h2 : ((cfg1.win 2).blk t).view.emb (ix2 (0 : Fin 1) q) = rowOf (((cfg1.win 6).blk t).view.emb (ix2 p q)) := by
    funext a; apply Fin.ext
    match a with
    | ⟨0, _⟩ => show win1_2.index t (0 : Fin 2) * 1 + 1 * 0 = 0; omega
    | ⟨1, _⟩ => show win1_2.index t (1 : Fin 2) * 5888 + 1 * q.val = win1_6.index t (1 : Fin 2) * 5888 + 1 * q.val; omega
  have h3 : ((cfg1.win 3).blk t).view.emb (ix2 (0 : Fin 1) q) = rowOf (((cfg1.win 6).blk t).view.emb (ix2 p q)) := by
    funext a; apply Fin.ext
    match a with
    | ⟨0, _⟩ => show win1_3.index t (0 : Fin 2) * 1 + 1 * 0 = 0; omega
    | ⟨1, _⟩ => show win1_3.index t (1 : Fin 2) * 5888 + 1 * q.val = win1_6.index t (1 : Fin 2) * 5888 + 1 * q.val; omega
  have h4 : ((cfg1.win 4).blk t).view.emb (ix2 (0 : Fin 1) q) = rowOf (((cfg1.win 6).blk t).view.emb (ix2 p q)) := by
    funext a; apply Fin.ext
    match a with
    | ⟨0, _⟩ => show win1_4.index t (0 : Fin 2) * 1 + 1 * 0 = 0; omega
    | ⟨1, _⟩ => show win1_4.index t (1 : Fin 2) * 5888 + 1 * q.val = win1_6.index t (1 : Fin 2) * 5888 + 1 * q.val; omega
  have h5 : ((cfg1.win 5).blk t).view.emb (ix2 (0 : Fin 1) q) = rowOf (((cfg1.win 6).blk t).view.emb (ix2 p q)) := by
    funext a; apply Fin.ext
    match a with
    | ⟨0, _⟩ => show win1_5.index t (0 : Fin 2) * 1 + 1 * 0 = 0; omega
    | ⟨1, _⟩ => show win1_5.index t (1 : Fin 2) * 5888 + 1 * q.val = win1_6.index t (1 : Fin 2) * 5888 + 1 * q.val; omega
  rw [h0, h1, h2, h3, h4, h5]

/-- An index of the array is in point t's block iff each coordinate is in the block's range on its axis. -/
theorem mem_blk1 (t : Fin cfg1.N) (i : S16x100096.Idx) :
    i ∈ ((cfg1.win 6).blk t).view.set ↔ ∀ a : Fin 2, win1_6.index t a * S16x5888.size a ≤ (i a).val ∧ (i a).val < win1_6.index t a * S16x5888.size a + S16x5888.size a := by
  show i ∈ ((View.whole main_v32).slice (win1_6.rect t)).set ↔ _
  rw [View.set_slice_whole, Rect.mem_set_unit]
  exact Iff.rfl

/-- Every index of the result is in the block of the point of its column block. -/
theorem cover1 (i : S16x100096.Idx) :
    ∃ t : Fin cfg1.N, (cfg1.win 6).flush t = true ∧ i ∈ ((cfg1.win 6).blk t).view.set := by
  have hi0 : (i 0).val < 16 := (i 0).isLt
  have hi1 : (i 1).val < 100096 := (i 1).isLt
  obtain ⟨t, ht⟩ := idx_onto1 ⟨(i 1).val / 5888, by omega⟩
  have q0 : win1_6.index t (0 : Fin 2) = 0 := congrFun ht 0
  have q1 : win1_6.index t (1 : Fin 2) = (i 1).val / 5888 := congrFun ht 1
  refine ⟨t, flush1_6 t, ?_⟩
  rw [mem_blk1]
  intro a
  match a with
  | ⟨0, _⟩ => show win1_6.index t (0 : Fin 2) * 16 ≤ (i 0).val ∧ (i 0).val < win1_6.index t (0 : Fin 2) * 16 + 16; omega
  | ⟨1, _⟩ => show win1_6.index t (1 : Fin 2) * 5888 ≤ (i 1).val ∧ (i 1).val < win1_6.index t (1 : Fin 2) * 5888 + 5888; omega

/-- The result array after region 1: the updates of the arrays the region found. -/
theorem final1 (c : Dev nD) :
    (dat1 V c).arrAt 6 cfg1.N
      = updates (V c main_v22) (V c main_v23) (V c main_v25) (V c main_v27) (V c main_v29) (V c main_v31) :=
  (dat1 V c).arrAt_eq_of_cover 6 _ (fun t _ => flushed1 V c t) cover1

end Cert.KernelIdeal.Regions

end
-- ==== Proof.KernelEntry.lean ====
/-
  The contents of the kernel program's arrays at the two region entries and at the return, as terms of the twelve
  argument arrays.

  Before region 0 the five edge arrays are the arguments reshaped from [1600000] to [625 × 2560] (the learnable bit
  first turned into a float).  Region 0 leaves the edge weights.  Between the regions the host flattens the weights,
  gathers rows of the transposed state by the shifted source words, multiplies, scatter-adds the rows into a zero
  [100096 × 16] array by the destination words and transposes it; the state and the four node vectors are padded with
  zeros from 100000 to 100096 columns.  Region 1 leaves the bounded update of those six arrays, and the result is its
  first 100000 columns.
-/
import proofs.«417327_j74921409511756_3_alg».proof.Proof.Gen.KernelIdeal.Frame
import proofs.«417327_j74921409511756_3_alg».proof.Proof.RegionValues
import Idealize.ShloMosaic.Lib.StableHlo.Run

set_option maxRecDepth 16384

noncomputable section

namespace Cert.KernelIdeal.Entry

open Cert.KernelIdeal Cert.KernelIdeal.Gen Cert.KernelIdeal.Regions
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The twelve arguments as launched, at their literal types -/

abbrev argX (c : Dev nD) : S16x100000.Idx → Elt F .f32 := m ((c : Thread nD τ).loc main_arg0)
abbrev argTh (c : Dev nD) : S1600000.Idx → Elt F .f32 := m ((c : Thread nD τ).loc main_arg1)
abbrev argBias (c : Dev nD) : S100000.Idx → Elt F .f32 := m ((c : Thread nD τ).loc main_arg2)
abbrev argRl (c : Dev nD) : S100000.Idx → Elt F .f32 := m ((c : Thread nD τ).loc main_arg3)
abbrev argBase (c : Dev nD) : S100000.Idx → Elt F .f32 := m ((c : Thread nD τ).loc main_arg4)
abbrev argCap (c : Dev nD) : S100000.Idx → Elt F .f32 := m ((c : Thread nD τ).loc main_arg5)
abbrev argSg (c : Dev nD) : S1600000.Idx → Elt F .f32 := m ((c : Thread nD τ).loc main_arg6)
abbrev argCf (c : Dev nD) : S1600000.Idx → Elt F .f32 := m ((c : Thread nD τ).loc main_arg7)
abbrev argDl (c : Dev nD) : S1600000.Idx → Elt F .f32 := m ((c : Thread nD τ).loc main_arg8)
abbrev argSrc (c : Dev nD) : IVec S1600000 32 := m ((c : Thread nD τ).loc main_arg9)
abbrev argDst (c : Dev nD) : IVec S1600000 32 := m ((c : Thread nD τ).loc main_arg10)
abbrev argMk (c : Dev nD) : IVec S1600000 1 := m ((c : Thread nD τ).loc main_arg11)

/-! ## Region 0's entry and exit -/

theorem entry0_v1 (c : Dev nD) : V1 m ρ c main_v1 = shapeCast S625x2560 (argTh m c) shapeCasts_S1600000_S625x2560 := by
  show StableHlo.after hostOps0 (W0 m ρ c) (Proc.devRef .tc main_v1) = _
  after_results_simp <;> rfl
theorem entry0_v2 (c : Dev nD) : V1 m ρ c main_v2 = shapeCast S625x2560 (argSg m c) shapeCasts_S1600000_S625x2560 := by
  show StableHlo.after hostOps0 (W0 m ρ c) (Proc.devRef .tc main_v2) = _
  after_results_simp <;> rfl
theorem entry0_v3 (c : Dev nD) : V1 m ρ c main_v3 = shapeCast S625x2560 (argCf m c) shapeCasts_S1600000_S625x2560 := by
  show StableHlo.after hostOps0 (W0 m ρ c) (Proc.devRef .tc main_v3) = _
  after_results_simp <;> rfl
theorem entry0_v4 (c : Dev nD) : V1 m ρ c main_v4 = shapeCast S625x2560 (argDl m c) shapeCasts_S1600000_S625x2560 := by
  show StableHlo.after hostOps0 (W0 m ρ c) (Proc.devRef .tc main_v4) = _
  after_results_simp <;> rfl
theorem entry0_v5 (c : Dev nD) :
    V1 m ρ c main_v5 = shapeCast S625x2560 (uitofp .f32 (argMk m c) : S1600000.Idx → Elt F .f32) shapeCasts_S1600000_S625x2560 := by
  show StableHlo.after hostOps0 (W0 m ρ c) (Proc.devRef .tc main_v5) = _
  after_results_simp <;> rfl

/-- The edge weights as region 0 leaves them, over the reshaped arguments. -/
abbrev weights2 (c : Dev nD) : S625x2560.Idx → Elt F .f32 :=
  weights (shapeCast S625x2560 (argTh m c) shapeCasts_S1600000_S625x2560) (shapeCast S625x2560 (argSg m c) shapeCasts_S1600000_S625x2560)
    (shapeCast S625x2560 (argCf m c) shapeCasts_S1600000_S625x2560) (shapeCast S625x2560 (argDl m c) shapeCasts_S1600000_S625x2560)
    (shapeCast S625x2560 (uitofp .f32 (argMk m c) : S1600000.Idx → Elt F .f32) shapeCasts_S1600000_S625x2560)

theorem exit0_v6 (c : Dev nD) : W2 m ρ c (Proc.devRef .tc main_v6) = weights2 m c := by
  refine (W2_arr m ρ c 5).trans ?_
  rw [final0 (V1 m ρ) c, entry0_v1, entry0_v2, entry0_v3, entry0_v4, entry0_v5]

/-- An argument region 0 does not write holds at its exit what it held at launch. -/
theorem exit0_arg0 (c : Dev nD) : W2 m ρ c (Proc.devRef .tc main_arg0) = argX m c :=
  (W2_of_ne m ρ c main_arg0 (by decide)).trans (by
    show StableHlo.after hostOps0 (W0 m ρ c) (Proc.devRef .tc main_arg0) = _
    after_results_simp <;> rfl)
theorem exit0_arg2 (c : Dev nD) : W2 m ρ c (Proc.devRef .tc main_arg2) = argBias m c :=
  (W2_of_ne m ρ c main_arg2 (by decide)).trans (by
    show StableHlo.after hostOps0 (W0 m ρ c) (Proc.devRef .tc main_arg2) = _
    after_results_simp <;> rfl)
theorem exit0_arg3 (c : Dev nD) : W2 m ρ c (Proc.devRef .tc main_arg3) = argRl m c :=
  (W2_of_ne m ρ c main_arg3 (by decide)).trans (by
    show StableHlo.after hostOps0 (W0 m ρ c) (Proc.devRef .tc main_arg3) = _
    after_results_simp <;> rfl)
theorem exit0_arg4 (c : Dev nD) : W2 m ρ c (Proc.devRef .tc main_arg4) = argBase m c :=
  (W2_of_ne m ρ c main_arg4 (by decide)).trans (by
    show StableHlo.after hostOps0 (W0 m ρ c) (Proc.devRef .tc main_arg4) = _
    after_results_simp <;> rfl)
theorem exit0_arg5 (c : Dev nD) : W2 m ρ c (Proc.devRef .tc main_arg5) = argCap m c :=
  (W2_of_ne m ρ c main_arg5 (by decide)).trans (by
    show StableHlo.after hostOps0 (W0 m ρ c) (Proc.devRef .tc main_arg5) = _
    after_results_simp <;> rfl)
theorem exit0_arg9 (c : Dev nD) : W2 m ρ c (Proc.devRef .tc main_arg9) = argSrc m c :=
  (W2_of_ne m ρ c main_arg9 (by decide)).trans (by
    show StableHlo.after hostOps0 (W0 m ρ c) (Proc.devRef .tc main_arg9) = _
    after_results_simp <;> rfl)
theorem exit0_arg10 (c : Dev nD) : W2 m ρ c (Proc.devRef .tc main_arg10) = argDst m c :=
  (W2_of_ne m ρ c main_arg10 (by decide)).trans (by
    show StableHlo.after hostOps0 (W0 m ρ c) (Proc.devRef .tc main_arg10) = _
    after_results_simp <;> rfl)

/-! ## Region 1's entry -/

/-- What the nodes collected, transposed to [16 × 100096]. -/
abbrev collectedT (c : Dev nD) : S16x100096.Idx → Elt F .f32 :=
  transpose S16x100096 [1, 0]
    (Host.scatterAdd scatter_S100096x16_S1600000x1_S1600000x16_1_0_0_1
      (broadcastInDim S100096x16 ![] bcast_S_S100096x16 (constant S_ .f32 0x00000000#32))
      (broadcastInDim S1600000x1 ![0] bcast_S1600000_S1600000x1_0 (argDst m c))
      (mulf
        (Host.gather gather_S100000x16_S1600000x1_S1600000x16_1_0_n_n_0_1_116
          (transpose S100000x16 [1, 0] (argX m c) transposes_S16x100000_S100000x16_1_0)
          (broadcastInDim S1600000x1 ![0] bcast_S1600000_S1600000x1_0
            (select (cmpi .slt (argSrc m c) (broadcastInDim S1600000 ![] bcast_S_S1600000 (constantI S_ 32 0#32)))
              (addi (argSrc m c) (broadcastInDim S1600000 ![] bcast_S_S1600000 (constantI S_ 32 100000#32))) (argSrc m c))))
        (broadcastInDim S1600000x16 ![0, 1] bcast_S1600000x1_S1600000x16_0_1
          (broadcastInDim S1600000x1 ![0] bcast_S1600000_S1600000x1_0
            (shapeCast S1600000 (weights2 m c) shapeCasts_S625x2560_S1600000)))))
    transposes_S100096x16_S16x100096_1_0

/-- The state padded with zeros to 100096 columns. -/
abbrev statePad (c : Dev nD) : S16x100096.Idx → Elt F .f32 :=
  pad S16x100096 ![0, 0] ![0, 96] ![0, 0] (argX m c) (sitofp .f32 (constantI S_ 32 0#32) : S_.Idx → Elt F .f32)
    pads_S16x100000_S16x100096_000_0960 h_S_

/-- A node vector padded with zeros to 100096 entries and laid out as one row. -/
abbrev rowPad (r : S100000.Idx → Elt F .f32) : S1x100096.Idx → Elt F .f32 :=
  shapeCast S1x100096 (pad S100096 ![0] ![96] ![0] r (sitofp .f32 (constantI S_ 32 0#32) : S_.Idx → Elt F .f32)
    pads_S100000_S100096_0960 h_S_) shapeCasts_S100096_S1x100096

set_option maxHeartbeats 2000000 in
theorem entry1_v22 (c : Dev nD) : V13 m ρ c main_v22 = collectedT m c := by
  show W13 m ρ c (Proc.devRef .tc main_v22) = _
  dsimp only [W13, W12, W11, W10, W9, W8, W7, W6, W5, W4, W3]
  after_results_simp
  rw [exit0_arg10, exit0_arg0, exit0_arg9, exit0_v6]
  rfl

set_option maxHeartbeats 2000000 in
theorem entry1_v23 (c : Dev nD) : V13 m ρ c main_v23 = statePad m c := by
  show W13 m ρ c (Proc.devRef .tc main_v23) = _
  dsimp only [W13, W12, W11, W10, W9, W8, W7, W6, W5, W4, W3]
  after_results_simp
  rw [exit0_arg0]
  rfl

set_option maxHeartbeats 2000000 in
theorem entry1_v25 (c : Dev nD) : V13 m ρ c main_v25 = rowPad (argBias m c) := by
  show W13 m ρ c (Proc.devRef .tc main_v25) = _
  dsimp only [W13, W12, W11, W10, W9, W8, W7, W6, W5, W4, W3]
  after_results_simp
  rw [exit0_arg2]
  rfl

set_option maxHeartbeats 2000000 in
theorem entry1_v27 (c : Dev nD) : V13 m ρ c main_v27 = rowPad (argRl m c) := by
  show W13 m ρ c (Proc.devRef .tc main_v27) = _
  dsimp only [W13, W12, W11, W10, W9, W8, W7, W6, W5, W4, W3]
  after_results_simp
  rw [exit0_arg3]
  rfl

set_option maxHeartbeats 2000000 in
theorem entry1_v29 (c : Dev nD) : V13 m ρ c main_v29 = rowPad (argBase m c) := by
  show W13 m ρ c (Proc.devRef .tc main_v29) = _
  dsimp only [W13, W12, W11, W10, W9, W8, W7, W6, W5, W4, W3]
  after_results_simp
  rw [exit0_arg4]
  rfl

set_option maxHeartbeats 2000000 in
theorem entry1_v31 (c : Dev nD) : V13 m ρ c main_v31 = rowPad (argCap m c) := by
  show W13 m ρ c (Proc.devRef .tc main_v31) = _
  dsimp only [W13, W12, W11, W10, W9, W8, W7, W6, W5, W4, W3]
  after_results_simp
  rw [exit0_arg5]
  rfl

/-! ## The result at the return -/

/-- The result array at the return: the first 100000 columns of the bounded update of region 1's six arrays. -/
theorem result_eq (c : Dev nD) :
    W15 m ρ c (Proc.devRef .tc main_v33)
      = extractStridedSlice S16x100000 ![0, 0]
          (updates (collectedT m c) (statePad m c) (rowPad (argBias m c)) (rowPad (argRl m c)) (rowPad (argBase m c)) (rowPad (argCap m c)))
          slices_S16x100096_S16x100000_0_0 := by
  dsimp only [W15]
  after_results
  have e : W14 m ρ c (Proc.devRef .tc main_v32)
      = updates (collectedT m c) (statePad m c) (rowPad (argBias m c)) (rowPad (argRl m c)) (rowPad (argBase m c)) (rowPad (argCap m c)) := by
    refine (W14_arr m ρ c 6).trans ?_
    rw [final1 (V13 m ρ) c, entry1_v22, entry1_v23, entry1_v25, entry1_v27, entry1_v29, entry1_v31]
  rw [e]

end Cert.KernelIdeal.Entry

end
-- ==== Proof.LibGatherClamp.lean ====
/-
  The one-index gathers read at one element, whatever the start index.

  A gather whose start indices are an [e × 1] column (the index vector on axis 1, one component, sent to operand
  axis 0, that axis collapsed) reads, for result row p, the operand row

      min (toNat (idx[p, 0] read as a signed integer)) (n − 1):

  a negative word reads row 0, a word past the last row reads row n − 1, and a word that is a row number reads that
  row. For a rank-1 operand the result element p is that element of the operand; for an [n × f] operand whose second
  axis is an offset axis of full width, result element (p, c) is the operand's element (that row, c).

  No hypothesis is made on the index words. Each statement takes the dimension numbers' fields as hypotheses, so it
  applies to any record with those fields.
-/
import Idealize.ShloMosaic.PureOps.Ideal
import Idealize.ShloMosaic.Lib.ValueIdx
import proofs.«417327_j74921409511756_3_alg».proof.Proof.LibIndexMaps

noncomputable section

namespace Cert.Gcn.GatherClamp

open Idealize.ShloMosaic Idealize.ShloMosaic.ValueIdx Cert.Gcn.IndexMaps

/-- Rank-1 operand of n > 0 elements, [e × 1] start indices, rank-1 result: result element p is the operand's
    element at the index word at (p, 0) read signed, as a natural number, clamped to the last position n − 1. -/
theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p) = x (ix1 ⟨min (idx (ix2 p (0 : Fin 1))).toInt.toNat (n - 1), by omega⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start (ix1 p) idx 0 + d.batchCoord (ix1 p) 0 + d.offCoord (ix1 p) 0
    = min (idx (ix2 p (0 : Fin 1))).toInt.toNat (n - 1)
  rw [GatherDims.batchCoord_eq_zero _ _ _ hb, GatherDims.offCoord_eq_zero _ _ _ hkp]
  unfold GatherDims.start
  rw [dif_pos hm, gather_siIdx_rank1 d hivd (ix1 p) _ _ (0 : Fin 1) hi, hsl]
  rfl

/-- [n × f] operand of n > 0 rows, [e × 1] start indices, [e × f] result, the second axis an offset axis of full
    width: result element (p, c) is the operand's element (r, c), where the row r is the index word at (p, 0) read
    signed, as a natural number, clamped to the last row n − 1. -/
theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c) = x (ix2 ⟨min (idx (ix2 p (0 : Fin 1))).toInt.toNat (n - 1), by omega⟩ c) := by
  unfold Host.gather
  congr 1
  funext a
  apply Fin.ext
  have hb : ∀ a : Fin 2, a ∉ d.operandBatchingDims := by intro a; rw [hob]; exact List.not_mem_nil
  show d.start (ix2 p c) idx a + d.batchCoord (ix2 p c) a + d.offCoord (ix2 p c) a
    = (ix2 (⟨min (idx (ix2 p (0 : Fin 1))).toInt.toNat (n - 1), by omega⟩ : Fin n) c a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + ((ix2 p c) _).val = c.val
    have hall : ∀ x ∈ d.offsetDims, x.val = 1 := by rw [hod]; simp
    rw [coord_of_val1 (ix2 p c) _ (hall _ (List.getElem_mem _))]
    show 0 + 0 + c.val = c.val
    omega

end Cert.Gcn.GatherClamp

end
-- ==== Proof.LibScatterHost.lean ====
/-
  The accumulating row scatter, read at one element, in the host operation's own spelling.

  An accumulating scatter of [e × f] update rows into an [n × f] array by an [e × 1] column of row words leaves at
  (r, c) the array's element plus column c of every update row whose word, read signed, is r. This is the statement
  of the index-map lemma with the operation written as the host program writes it.
-/
import proofs.«417327_j74921409511756_3_alg».proof.Proof.LibIndexMaps
import Idealize.ShloMosaic.PureOps.Contract

noncomputable section

namespace Cert.LibScatterHost

open Idealize.ShloMosaic Idealize.ShloMosaic.ValueIdx

theorem scatterAdd2_apply {φ : FTy} {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : FVec Ideal ⟨2, ![n, f]⟩ φ) (idx : IVec ⟨2, ![e, 1]⟩ w) (upd : FVec Ideal ⟨2, ![e, f]⟩ φ)
    (r : Fin n) (c : Fin f) :
    Host.scatterAdd (F := Ideal) d x idx upd (ix2 r c)
      = x (ix2 r c) + ∑ p : Fin e, if (idx (ix2 p (0 : Fin 1))).toInt = ((r.val : ℕ) : Int) then upd (ix2 p c) else 0 :=
  Cert.Gcn.IndexMaps.hostScatterAdd2_apply d huw hiw hsd hivd x idx upd r c

end Cert.LibScatterHost

end
-- ==== Proof.KernelCollect.lean ====
/-
  What the kernel program's host operations leave in the array its second region reads, index by index.

  The state array is transposed to node-major rows; each edge's row is gathered by the source word (a negative word
  shifted up by the node count, the result clamped to the node range) and multiplied by the edge's weight repeated
  over the 16 states; the rows are scatter-added, from the zero word's value, into 100096 rows by the raw destination
  words; the result is transposed back. At (b, n) this is the zero word's value plus the messages of state b along
  the edges whose destination word, read signed, is n.
-/
import proofs.«417327_j74921409511756_3_alg».proof.Proof.Gen.KernelIdeal
import proofs.«417327_j74921409511756_3_alg».proof.Proof.StepSpec
import proofs.«417327_j74921409511756_3_alg».proof.Proof.LibGatherClamp
import proofs.«417327_j74921409511756_3_alg».proof.Proof.LibScatterHost
import Idealize.ShloMosaic.Lib.ValueIdx
import Idealize.ShloMosaic.Lib.ValueLayout
import Idealize.ShloMosaic.Lib.Pipeline.Value

noncomputable section

namespace Cert.KernelCollect

open Cert.KernelIdeal Cert.KernelIdeal.Gen Idealize.ShloMosaic Idealize.ShloMosaic.ValueIdx

/-! ## The layout operations at explicit coordinates -/

/-- A per-edge vector made a one-column array reads, at row p, the vector's element p. -/
theorem col_apply {α : Type} (v : S1600000.Idx → α) (p : Fin 1600000) :
    broadcastInDim S1600000x1 ![0] bcast_S1600000_S1600000x1_0 v (ix2 p (0 : Fin 1)) = v (ix1 p) :=
  broadcastInDim_apply _ bcast_S1600000_S1600000x1_0 v (ix2 p (0 : Fin 1)) (ix1 p) (fun a => match a with
    | ⟨0, _⟩ => by show p.val = if (1600000 : Nat) = 1 then 0 else p.val; rw [if_neg (by omega)])

/-- A one-column array repeated over 16 columns reads, at (p, b), the column's row p. -/
theorem rep_apply {α : Type} (v : S1600000x1.Idx → α) (p : Fin 1600000) (b : Fin 16) :
    broadcastInDim S1600000x16 ![0, 1] bcast_S1600000x1_S1600000x16_0_1 v (ix2 p b) = v (ix2 p (0 : Fin 1)) :=
  broadcastInDim_apply _ bcast_S1600000x1_S1600000x16_0_1 v (ix2 p b) (ix2 p (0 : Fin 1)) (fun a => match a with
    | ⟨0, _⟩ => by show p.val = if (1600000 : Nat) = 1 then 0 else p.val; rw [if_neg (by omega)]
    | ⟨1, _⟩ => by show 0 = if (1 : Nat) = 1 then 0 else b.val; rw [if_pos rfl])

/-- The scatter's operand is the zero word's value everywhere. -/
theorem zero_apply (n : Fin 100096) (b : Fin 16) :
    broadcastInDim S100096x16 ![] bcast_S_S100096x16 (constant (F := Ideal) S_ .f32 0x00000000#32) (ix2 n b)
      = Ideal.ofBits .f32 0x00000000#32 := by
  rw [broadcastInDim_apply _ bcast_S_S100096x16 _ (ix2 n b) ix0 (fun a => a.elim0)]
  rfl

/-! ## The index words -/

/-- The shifted source words at edge p. -/
theorem wrap_apply (src : IVec S1600000 32) (p : Fin 1600000) :
    select (cmpi .slt src (broadcastInDim S1600000 ![] bcast_S_S1600000 (constantI S_ 32 0#32)))
        (addi src (broadcastInDim S1600000 ![] bcast_S_S1600000 (constantI S_ 32 100000#32))) src (ix1 p)
      = Cert.Msg.wrapWord (src (ix1 p)) := by
  have h0 : broadcastInDim S1600000 ![] bcast_S_S1600000 (constantI S_ 32 0#32) (ix1 p) = 0#32 := by
    rw [broadcastInDim_apply _ bcast_S_S1600000 _ (ix1 p) ix0 (fun a => a.elim0)]
    rfl
  have h1 : broadcastInDim S1600000 ![] bcast_S_S1600000 (constantI S_ 32 100000#32) (ix1 p) = 100000#32 := by
    rw [broadcastInDim_apply _ bcast_S_S1600000 _ (ix1 p) ix0 (fun a => a.elim0)]
    rfl
  show Scalar.select (IntOp.cmpi .slt (src (ix1 p))
      (broadcastInDim S1600000 ![] bcast_S_S1600000 (constantI S_ 32 0#32) (ix1 p)))
    (IntOp.addi (src (ix1 p)) (broadcastInDim S1600000 ![] bcast_S_S1600000 (constantI S_ 32 100000#32) (ix1 p)))
    (src (ix1 p)) = _
  rw [h0, h1]
  rfl

/-! ## The gathered rows and the scatter -/

/-- The gathered array at (p, b) is state b of the node edge p reads. -/
theorem gathered_apply (x : S16x100000.Idx → EReal) (src : IVec S1600000 32) (p : Fin 1600000) (b : Fin 16) :
    Host.gather gather_S100000x16_S1600000x1_S1600000x16_1_0_n_n_0_1_116
        (transpose S100000x16 [1, 0] x transposes_S16x100000_S100000x16_1_0)
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)) (ix2 p b)
      = x (ix2 b (Cert.Msg.clampNode (Cert.Msg.wrapWord (src (ix1 p))))) := by
  rw [Cert.Gcn.GatherClamp.gather2_clamp_apply (by omega) _ rfl rfl rfl rfl rfl, transpose_ix2_apply]
  refine congrArg (fun k : Fin 100000 => x (ix2 b k)) (Fin.ext ?_)
  show min (BitVec.toInt (broadcastInDim S1600000x1 ![0] bcast_S1600000_S1600000x1_0
      (select (cmpi .slt src (broadcastInDim S1600000 ![] bcast_S_S1600000 (constantI S_ 32 0#32)))
        (addi src (broadcastInDim S1600000 ![] bcast_S_S1600000 (constantI S_ 32 100000#32))) src)
      (ix2 p (0 : Fin 1)))).toNat (100000 - 1)
    = min (BitVec.toInt (Cert.Msg.wrapWord (src (ix1 p)))).toNat (100000 - 1)
  rw [col_apply, wrap_apply]

theorem collected_apply (x : S16x100000.Idx → EReal) (src dst : IVec S1600000 32) (wv : S1600000.Idx → EReal) (b : Fin 16) (n : Fin 100096) :
    transpose S16x100096 [1, 0]
      (Host.scatterAdd (F := Ideal) scatter_S100096x16_S1600000x1_S1600000x16_1_0_0_1
        (broadcastInDim S100096x16 ![] bcast_S_S100096x16 (constant (F := Ideal) S_ .f32 0x00000000#32))
        (broadcastInDim S1600000x1 ![0] bcast_S1600000_S1600000x1_0 dst)
        (mulf
          (Host.gather gather_S100000x16_S1600000x1_S1600000x16_1_0_n_n_0_1_116
            (transpose S100000x16 [1, 0] x transposes_S16x100000_S100000x16_1_0)
            (broadcastInDim S1600000x1 ![0] bcast_S1600000_S1600000x1_0
              (select (cmpi .slt src (broadcastInDim S1600000 ![] bcast_S_S1600000 (constantI S_ 32 0#32)))
                (addi src (broadcastInDim S1600000 ![] bcast_S_S1600000 (constantI S_ 32 100000#32))) src)))
          (broadcastInDim S1600000x16 ![0, 1] bcast_S1600000x1_S1600000x16_0_1
            (broadcastInDim S1600000x1 ![0] bcast_S1600000_S1600000x1_0 wv))))
      transposes_S100096x16_S16x100096_1_0 (ix2 b n)
    = Ideal.ofBits .f32 0x00000000#32
      + ∑ p : Fin 1600000, if (dst (ix1 p)).toInt = ((n.val : ℕ) : Int)
          then x (ix2 b (Cert.Msg.clampNode (Cert.Msg.wrapWord (src (ix1 p))))) * wv (ix1 p) else 0 := by
  rw [transpose_ix2_apply, Cert.LibScatterHost.scatterAdd2_apply _ rfl rfl rfl rfl, zero_apply]
  refine congrArg₂ (· + ·) rfl (Finset.sum_congr rfl fun p _ => ?_)
  rw [col_apply, mulf_apply, gathered_apply, rep_apply, col_apply]

end Cert.KernelCollect

end
-- ==== Proof.LibPadReads.lean ====
/-
  Layout operations read at one element: a high pad, the leading columns of an array, a reshape around a pointwise
  function, and a one-bit word compared as a float.

  An [a × n] array padded high on its second axis to [a × n'], with no low or interior padding, keeps its own
  elements at the columns below n; so does a length-n vector padded high to n' and then laid out as the one row of a
  [1 × n'] array.  The slice at offset (0, 0) of shape [a × n] of an [a × n'] array reads the array's own elements.
  A pointwise function of arrays that have been reshaped to another shape, reshaped back, is the pointwise function
  of the arrays themselves: a reshape only renames the positions, and there and back is the identity.  At the
  extended reals a one-bit word turned into a float is 0 or 1, so it differs from the zero float exactly when the bit
  is 1.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.LibPadReads

open Idealize.ShloMosaic Idealize.ShloMosaic.ValueIdx

/-! ## A high pad -/

/-- A [a × n] array padded high on the second axis to [a × n'] reads, at a column below n, the array's own element. -/
theorem pad_cols_apply {α : Type} {a n n' : ℕ} {u : Shape} (x : (⟨2, ![a, n]⟩ : Shape).Idx → α) (v : u.Idx → α)
    (h : (⟨2, ![a, n]⟩ : Shape).Pads ![0, 0] ![0, n' - n] ![0, 0] ⟨2, ![a, n']⟩) (hu : 0 < u.numel)
    (b : Fin a) (j : Fin n') (hj : j.val < n) :
    pad ⟨2, ![a, n']⟩ ![0, 0] ![0, n' - n] ![0, 0] x v h hu (ix2 b j) = x (ix2 b ⟨j.val, hj⟩) := by
  have hb := b.isLt
  unfold pad
  split
  · refine congrArg x (funext fun a' => Fin.ext ?_)
    match a' with
    | ⟨0, _⟩ =>
      show (b.val - 0) / (0 + 1) = b.val
      omega
    | ⟨1, _⟩ =>
      show (j.val - 0) / (0 + 1) = j.val
      omega
  · rename_i hnot
    refine absurd (fun a' => ?_) hnot
    match a' with
    | ⟨0, _⟩ =>
      show 0 ≤ b.val ∧ (b.val - 0) % (0 + 1) = 0 ∧ (b.val - 0) / (0 + 1) < a
      omega
    | ⟨1, _⟩ =>
      show 0 ≤ j.val ∧ (j.val - 0) % (0 + 1) = 0 ∧ (j.val - 0) / (0 + 1) < n
      omega

/-- A length-n vector padded high to n' reads, at a position below n, the vector's own element. -/
theorem pad_vec_apply {α : Type} {n n' : ℕ} {u : Shape} (r : (⟨1, ![n]⟩ : Shape).Idx → α) (v : u.Idx → α)
    (h : (⟨1, ![n]⟩ : Shape).Pads ![0] ![n' - n] ![0] ⟨1, ![n']⟩) (hu : 0 < u.numel)
    (j : Fin n') (hj : j.val < n) :
    pad ⟨1, ![n']⟩ ![0] ![n' - n] ![0] r v h hu (ix1 j) = r (ix1 ⟨j.val, hj⟩) := by
  unfold pad
  split
  · refine congrArg r (funext fun a' => Fin.ext ?_)
    match a' with
    | ⟨0, _⟩ =>
      show (j.val - 0) / (0 + 1) = j.val
      omega
  · rename_i hnot
    refine absurd (fun a' => ?_) hnot
    match a' with
    | ⟨0, _⟩ =>
      show 0 ≤ j.val ∧ (j.val - 0) % (0 + 1) = 0 ∧ (j.val - 0) / (0 + 1) < n
      omega

/-- A length-n vector padded high to n' and laid out as one row reads, at a column below n, the vector's own element. -/
theorem pad_row_apply {α : Type} {n n' : ℕ} {u : Shape} (r : (⟨1, ![n]⟩ : Shape).Idx → α) (v : u.Idx → α)
    (h : (⟨1, ![n]⟩ : Shape).Pads ![0] ![n' - n] ![0] ⟨1, ![n']⟩) (hu : 0 < u.numel)
    (hc : (⟨1, ![n']⟩ : Shape).ShapeCasts ⟨2, ![1, n']⟩) (j : Fin n') (hj : j.val < n) :
    shapeCast ⟨2, ![1, n']⟩ (pad ⟨1, ![n']⟩ ![0] ![n' - n] ![0] r v h hu) hc (ix2 (0 : Fin 1) j) = r (ix1 ⟨j.val, hj⟩) := by
  rw [shapeCast_a_1a_apply]
  exact pad_vec_apply r v h hu j hj

/-! ## The leading columns -/

/-- The leading columns of a [a × n'] array: the slice at offset (0, 0) of shape [a × n] reads the array's own element. -/
theorem slice_cols_apply {α : Type} {a n n' : ℕ} (y : (⟨2, ![a, n']⟩ : Shape).Idx → α)
    (h : (⟨2, ![a, n']⟩ : Shape).Slices ![0, 0] ⟨2, ![a, n]⟩) (b : Fin a) (j : Fin n) (hj : j.val < n') :
    extractStridedSlice ⟨2, ![a, n]⟩ ![0, 0] y h (ix2 b j) = y (ix2 b ⟨j.val, hj⟩) :=
  extractStridedSlice_apply _ y h _ _ (fun a' => by
    match a' with
    | ⟨0, _⟩ =>
      show b.val = 0 + b.val
      omega
    | ⟨1, _⟩ =>
      show j.val = 0 + j.val
      omega)

/-! ## A pointwise function between two reshapes -/

/-- A pointwise function of five arrays reshaped to another shape, reshaped back, is the pointwise function of the
    arrays. -/
theorem reshape_pointwise5 {s t : Shape} {α₀ α₁ α₂ α₃ α₄ β : Type} (f : α₀ → α₁ → α₂ → α₃ → α₄ → β)
    (x0 : s.Idx → α₀) (x1 : s.Idx → α₁) (x2 : s.Idx → α₂) (x3 : s.Idx → α₃) (x4 : s.Idx → α₄)
    (h : s.ShapeCasts t) (h' : t.ShapeCasts s) :
    shapeCast s (fun i => f (shapeCast t x0 h i) (shapeCast t x1 h i) (shapeCast t x2 h i) (shapeCast t x3 h i)
        (shapeCast t x4 h i)) h'
      = fun j => f (x0 j) (x1 j) (x2 j) (x3 j) (x4 j) := by
  funext j
  have e : ∀ {γ : Type} (x : s.Idx → γ), shapeCast t x h (Shape.reshapeEquiv h' j) = x j :=
    fun x => congrFun (shapeCast_shapeCast x h h') j
  show f (shapeCast t x0 h (Shape.reshapeEquiv h' j)) (shapeCast t x1 h (Shape.reshapeEquiv h' j))
      (shapeCast t x2 h (Shape.reshapeEquiv h' j)) (shapeCast t x3 h (Shape.reshapeEquiv h' j))
      (shapeCast t x4 h (Shape.reshapeEquiv h' j))
    = f (x0 j) (x1 j) (x2 j) (x3 j) (x4 j)
  rw [e x0, e x1, e x2, e x3, e x4]

/-! ## A one-bit word as a float -/

/-- At the extended reals, a one-bit word turned into a float (0 or 1) differs from the zero float exactly when the
    bit is 1. -/
theorem cmp_one_uitofp (mk : BitVec 1) :
    FloatOps.cmpf (F := Ideal) (φ := .f32) .one (FloatOps.uitofp .f32 mk) (Scalar.ofBits (F := Ideal) .f32 0x00000000#32) = mk := by
  have hz : Scalar.ofBits (F := Ideal) .f32 0x00000000#32 = (0 : EReal) := Ideal.ofBits_zero_f32
  rw [hz]
  show Ideal.cmp .one (((mk.toNat : ℝ) : EReal)) 0 = mk
  rcases BitVec.eq_zero_or_eq_one mk with rfl | rfl
  · simp [Ideal.cmp]
  · simp [Ideal.cmp]

end Cert.LibPadReads

end
-- ==== Proof.KernelStep.lean ====
/-
  The kernel program's result, read index by index, is the step of the specification.

  The result is the first 100000 columns of the bounded update of six arrays of 100096 columns. At a column n below
  100000: the padded state and the four padded node rows read the arguments' own entries at n; what the nodes
  collected, at (b, n), is the zero word's value plus the messages along the edges whose destination word is n, the
  weight of edge p being the flattened result of region 0 at p, which is the edge weight of the five edge arguments
  at p (reshaping there and back is the identity, and the learnable bit turned into a float differs from the zero
  float exactly when the bit is 1).
-/
import proofs.«417327_j74921409511756_3_alg».proof.Proof.KernelEntry
import proofs.«417327_j74921409511756_3_alg».proof.Proof.KernelCollect
import proofs.«417327_j74921409511756_3_alg».proof.Proof.LibPadReads
import proofs.«417327_j74921409511756_3_alg».proof.Proof.StepSpec
import Idealize.ShloMosaic.PureOps.Ideal
import Idealize.ShloMosaic.Lib.ValueIdx
import Idealize.ShloMosaic.Lib.ValueLayout
import Idealize.ShloMosaic.Lib.Pipeline.Value

noncomputable section

namespace Cert.KernelStep

open Cert.KernelIdeal Cert.KernelIdeal.Gen Cert.KernelIdeal.Regions Cert.KernelIdeal.Entry
open Idealize.ShloMosaic Idealize.ShloMosaic.TcCoe Idealize.SL.Sem Idealize.ShloMosaic.ValueIdx

variable (m : (ℓ : Loc nD τ sig) → Buf (Elt Ideal) ℓ)

/-! ## The edge weights -/

/-- The weights region 0 leaves, flattened, at edge p: the weight of edge p from the five edge arguments. -/
theorem flatWeight_apply (c : Dev nD) (p : Fin 1600000) :
    shapeCast S1600000 (weights2 m c) shapeCasts_S625x2560_S1600000 (ix1 p)
      = Cert.Msg.edgeW (argTh m c) (argSg m c) (argCf m c) (argDl m c) (argMk m c) p := by
  have h := congrFun (Cert.LibPadReads.reshape_pointwise5
    (fun (th sg cf dl mkf : Ideal .f32) => FloatOps.mulf (F := Ideal) (φ := .f32) (Scalar.select
      (FloatOps.cmpf (F := Ideal) (φ := .f32) .one mkf (Scalar.ofBits (F := Ideal) .f32 0x00000000#32))
      (FloatOps.tanh (F := Ideal) (φ := .f32) th) (FloatOps.mulf (F := Ideal) (φ := .f32) sg cf)) dl)
    (argTh m c) (argSg m c) (argCf m c) (argDl m c)
    (uitofp (F := Ideal) .f32 (argMk m c))
    shapeCasts_S1600000_S625x2560 shapeCasts_S625x2560_S1600000) (ix1 p)
  refine h.trans ?_
  show FloatOps.mulf (Scalar.select
      (FloatOps.cmpf (F := Ideal) (φ := .f32) .one (FloatOps.uitofp .f32 (argMk m c (ix1 p))) (Scalar.ofBits (F := Ideal) .f32 0x00000000#32))
      (FloatOps.tanh (argTh m c (ix1 p))) (FloatOps.mulf (argSg m c (ix1 p)) (argCf m c (ix1 p)))) (argDl m c (ix1 p)) = _
  rw [Cert.LibPadReads.cmp_one_uitofp]
  rfl

/-! ## What the nodes collect -/

/-- The transposed scatter result at (b, n) is what node n collects for state b. -/
theorem collectedT_apply (c : Dev nD) (b : Fin 16) (n : Fin 100096) :
    collectedT m c (ix2 b n)
      = Cert.Msg.collected (argX m c) (argTh m c) (argSg m c) (argCf m c) (argDl m c) (argSrc m c) (argDst m c)
          (argMk m c) b n.val := by
  refine (Cert.KernelCollect.collected_apply (argX m c) (argSrc m c) (argDst m c)
    (shapeCast S1600000 (weights2 m c) shapeCasts_S625x2560_S1600000) b n).trans ?_
  unfold Cert.Msg.collected
  refine congrArg₂ (· + ·) rfl (Finset.sum_congr rfl fun p _ => ?_)
  rw [flatWeight_apply]
  rfl

/-! ## The result -/

theorem kernel_eq (m : (ℓ : Loc nD τ sig) → Buf (Elt Ideal) ℓ) (c : Dev nD) :
    extractStridedSlice S16x100000 ![0, 0]
        (updates (collectedT m c) (statePad m c) (rowPad (argBias m c)) (rowPad (argRl m c)) (rowPad (argBase m c)) (rowPad (argCap m c)))
        slices_S16x100096_S16x100000_0_0
      = Cert.Msg.next (argX m c) (argTh m c) (argBias m c) (argRl m c) (argBase m c) (argCap m c) (argSg m c) (argCf m c) (argDl m c)
          (argSrc m c) (argDst m c) (argMk m c) := by
  funext i
  obtain ⟨b, n, rfl⟩ : ∃ (b : Fin 16) (n : Fin 100000), i = ix2 b n := ⟨i 0, i 1, eq_ix2 i⟩
  have hn : n.val < 100096 := by have := n.isLt; omega
  have hj : (⟨n.val, hn⟩ : Fin 100096).val < 100000 := n.isLt
  have hrow : rowOf (ix2 b (⟨n.val, hn⟩ : Fin 100096)) = ix2 (0 : Fin 1) (⟨n.val, hn⟩ : Fin 100096) :=
    funext fun a => match a with | ⟨0, _⟩ => rfl | ⟨1, _⟩ => rfl
  rw [Cert.LibPadReads.slice_cols_apply _ _ b n hn]
  show upd (collectedT m c (ix2 b ⟨n.val, hn⟩)) (statePad m c (ix2 b ⟨n.val, hn⟩))
      (rowPad (argBias m c) (rowOf (ix2 b ⟨n.val, hn⟩))) (rowPad (argRl m c) (rowOf (ix2 b ⟨n.val, hn⟩)))
      (rowPad (argBase m c) (rowOf (ix2 b ⟨n.val, hn⟩))) (rowPad (argCap m c) (rowOf (ix2 b ⟨n.val, hn⟩))) = _
  rw [hrow, collectedT_apply,
    show statePad m c (ix2 b ⟨n.val, hn⟩) = argX m c (ix2 b n) from
      Cert.LibPadReads.pad_cols_apply (n := 100000) (n' := 100096) (argX m c) _ _ _ b ⟨n.val, hn⟩ hj,
    show rowPad (argBias m c) (ix2 (0 : Fin 1) ⟨n.val, hn⟩) = argBias m c (ix1 n) from
      Cert.LibPadReads.pad_row_apply (n := 100000) (n' := 100096) (argBias m c) _ _ _ _ ⟨n.val, hn⟩ hj,
    show rowPad (argRl m c) (ix2 (0 : Fin 1) ⟨n.val, hn⟩) = argRl m c (ix1 n) from
      Cert.LibPadReads.pad_row_apply (n := 100000) (n' := 100096) (argRl m c) _ _ _ _ ⟨n.val, hn⟩ hj,
    show rowPad (argBase m c) (ix2 (0 : Fin 1) ⟨n.val, hn⟩) = argBase m c (ix1 n) from
      Cert.LibPadReads.pad_row_apply (n := 100000) (n' := 100096) (argBase m c) _ _ _ _ ⟨n.val, hn⟩ hj,
    show rowPad (argCap m c) (ix2 (0 : Fin 1) ⟨n.val, hn⟩) = argCap m c (ix1 n) from
      Cert.LibPadReads.pad_row_apply (n := 100000) (n' := 100096) (argCap m c) _ _ _ _ ⟨n.val, hn⟩ hj]
  show _ = Cert.Msg.update (Cert.Msg.collected (argX m c) (argTh m c) (argSg m c) (argCf m c) (argDl m c) (argSrc m c)
      (argDst m c) (argMk m c) b n.val) (argX m c (ix2 b n)) (argBias m c (ix1 n)) (argRl m c (ix1 n))
      (argBase m c (ix1 n)) (argCap m c (ix1 n))
  rfl

end Cert.KernelStep

end
-- ==== Proof.lean ====
/-
  The certificate of one explicit Euler step of a bounded message-passing dynamics on a graph (100000 nodes,
  1600000 edges, 16 states): the kernel program (two pipelined regions among host operations) against the plain
  reference, equal as extended reals.

  Both programs compute, index by index, the function `Cert.Msg.next` of the twelve argument arrays: the edge weight
  (tanh θ on a learnable edge, sign · conf otherwise, times the delay scale), the message  x[b, src] · weight  read at
  the shifted, clamped source word, the sum of the messages whose destination word is the node, and the bounded
  update  min cap (max 0 (x + 0.1 · rate · (tanh (collected + bias) · cap − x))).  The kernel program keeps the
  edge arrays as [625 × 2560], the collected sums transposed and padded to 100096 nodes, and the reference keeps
  [16 × 1600000] messages; reading every layout operation at an index makes both the same sum over the edges in the
  same order, so no law of the extended reals beyond that reading is used and finiteness of the floats is not needed.

  The two programs differ in one place: the reference shifts a negative destination word up by the node count
  before it scatters, the kernel program scatters by the raw word.  Under the precondition's conjunct that every
  destination word is non-negative (read signed) the shift does nothing and the two sums agree; a destination word at
  or past 100000 is dropped by the reference and lands on a padding row the kernel program slices away.
-/
import proofs.«417327_j74921409511756_3_alg».proof.Defs
import proofs.«417327_j74921409511756_3_alg».proof.Proof.Gen.Kernel
import proofs.«417327_j74921409511756_3_alg».proof.Proof.Gen.Kernel.Skeleton
import proofs.«417327_j74921409511756_3_alg».proof.Proof.Gen.Kernel.Launch
import proofs.«417327_j74921409511756_3_alg».proof.Proof.Gen.Kernel.Points
import proofs.«417327_j74921409511756_3_alg».proof.Proof.Gen.Kernel.Frame
import proofs.«417327_j74921409511756_3_alg».proof.Proof.Gen.KernelIdeal
import proofs.«417327_j74921409511756_3_alg».proof.Proof.Gen.KernelIdeal.Skeleton
import proofs.«417327_j74921409511756_3_alg».proof.Proof.Gen.KernelIdeal.Launch
import proofs.«417327_j74921409511756_3_alg».proof.Proof.Gen.KernelIdeal.Points
import proofs.«417327_j74921409511756_3_alg».proof.Proof.Gen.KernelIdeal.Frame
import proofs.«417327_j74921409511756_3_alg».proof.Proof.Gen.ReferenceIdeal
import proofs.«417327_j74921409511756_3_alg».proof.Proof.Gen.ReferenceIdeal.Run
import proofs.«417327_j74921409511756_3_alg».proof.Proof.Gen.ReferenceIdeal.Read
import proofs.«417327_j74921409511756_3_alg».proof.Proof.Gen.Pre_finite_inputs
import proofs.«417327_j74921409511756_3_alg».proof.Proof.StepSpec
import proofs.«417327_j74921409511756_3_alg».proof.Proof.DstRange
import proofs.«417327_j74921409511756_3_alg».proof.Proof.RefStep
import proofs.«417327_j74921409511756_3_alg».proof.Proof.KernelRun
import proofs.«417327_j74921409511756_3_alg».proof.Proof.KernelEntry
import proofs.«417327_j74921409511756_3_alg».proof.Proof.KernelStep
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel program at the bit level runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The kernel program at the extended reals runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, with every destination word non-negative, both programs end with the
    next state `Cert.Msg.next` of the kernel program's arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Msg.next (Cert.KernelIdeal.Entry.argX m c) (Cert.KernelIdeal.Entry.argTh m c) (Cert.KernelIdeal.Entry.argBias m c)
      (Cert.KernelIdeal.Entry.argRl m c) (Cert.KernelIdeal.Entry.argBase m c) (Cert.KernelIdeal.Entry.argCap m c)
      (Cert.KernelIdeal.Entry.argSg m c) (Cert.KernelIdeal.Entry.argCf m c) (Cert.KernelIdeal.Entry.argDl m c)
      (Cert.KernelIdeal.Entry.argSrc m c) (Cert.KernelIdeal.Entry.argDst m c) (Cert.KernelIdeal.Entry.argMk m c), ?_, ?_⟩
  · exact (θ_run Cert.KernelIdeal.defs _ _).mono
      (fun r h c => ⟨(h c).1.trans ((Cert.KernelIdeal.Entry.result_eq m ρ c).trans (Cert.KernelStep.kernel_eq m c)), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v39_eq, a0, a1, a2, a3, a4, a5, a6, a7, a8, a9, a10, a11]
    exact Cert.RefStep.reference_eq _ _ _ _ _ _ _ _ _ _ _ _ (Cert.DstRange.dst_nonneg m hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
